-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x2048 : Shape := ⟨2, ![512, 2048]⟩
abbrev S2048 : Shape := ⟨1, ![2048]⟩
abbrev S2048x2048 : Shape := ⟨2, ![2048, 2048]⟩
abbrev S2048x512 : Shape := ⟨2, ![2048, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S2048x2048 .f32) (main_arg5 : FVec F S2048 .f32) (main_arg6 : FVec F S2048x512 .f32) (main_arg7 : FVec F S512 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x512 .f32 := Host.absf main_arg6
  let main_cst_10 : FVec F S_ .f32 := constant S_ .f32 0x7F800000#32
  let main_v30 : FVec F S2048x512 .f32 := broadcastInDim S2048x512 ![] bcast_S_S2048x512 main_cst_10
  let main_v31 : IVec S2048x512 1 := cmpf .olt main_v29 main_v30
  let main_c_11 : IVec S_ 1 := constantI S_ 1 1#1
  let main_v32 : IVec S_ 1 := (fun x v => Host.reduce IntOp.andi x v reducesTo_S2048x512_S_d0_1 h_S_) main_v31 main_c_11
  let main_v33 : IVec S_ 1 := andi main_v28 main_v32
  fn_part2 (F := F) main_arg7 main_v33

def fn {F : FTy → Type} [FloatOps F] (main_arg0 : FVec F S8192x512 .f32) (main_arg1 : FVec F S8192x512 .f32) (main_arg2 : FVec F S512x2048 .f32) (main_arg3 : FVec F S2048 .f32) (main_arg4 : FVec F S2048x2048 .f32) (main_arg5 : FVec F S2048 .f32) (main_arg6 : FVec F S2048x512 .f32) (main_arg7 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_v13 main_v16
-- ==== Kernel.lean ====
abbrev S8192x512 : Shape := ⟨2, ![8192, 512]⟩
abbrev S512x2048 : Shape := ⟨2, ![512, 2048]⟩
abbrev S2048 : Shape := ⟨1, ![2048]⟩
abbrev S2048x2048 : Shape := ⟨2, ![2048, 2048]⟩
abbrev S2048x512 : Shape := ⟨2, ![2048, 512]⟩
abbrev S512 : Shape := ⟨1, ![512]⟩
abbrev S1x2048 : Shape := ⟨2, ![1, 2048]⟩
abbrev S1x512 : Shape := ⟨2, ![1, 512]⟩
abbrev S8192x1 : Shape := ⟨2, ![8192, 1]⟩
abbrev S256x512 : Shape := ⟨2, ![256, 512]⟩
abbrev S256x1 : Shape := ⟨2, ![256, 1]⟩
abbrev S128x512 : Shape := ⟨2, ![128, 512]⟩
abbrev S128x2048 : Shape := ⟨2, ![128, 2048]⟩
abbrev S128x1 : Shape := ⟨2, ![128, 1]⟩
abbrev S128 : Shape := ⟨1, ![128]⟩
abbrev S8192 : Shape := ⟨1, ![8192]⟩

abbrev nBuf : Space → Nat
  | .hbm => 23
  | .vmem => 17
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x512, .f32⟩
  | .hbm, ⟨7, _⟩ => ⟨S512, .f32⟩
  | .hbm, ⟨8, _⟩ => ⟨S512x2048, .bf16⟩
  | .hbm, ⟨9, _⟩ => ⟨S2048x2048, .bf16⟩
  | .hbm, ⟨10, _⟩ => ⟨S2048x512, .bf16⟩
  | .hbm, ⟨11, _⟩ => ⟨S2048x512, .f32⟩
  | .hbm, ⟨12, _⟩ => ⟨S2048x512, .bf16⟩
  | .hbm, ⟨13, _⟩ => ⟨S2048x2048, .f32⟩
  | .hbm, ⟨14, _⟩ => ⟨S2048x2048, .bf16⟩
  | .hbm, ⟨15, _⟩ => ⟨S512x2048, .f32⟩
  | .hbm, ⟨16, _⟩ => ⟨S512x2048, .bf16⟩
  | .hbm, ⟨17, _⟩ => ⟨S1x2048, .f32⟩
  | .hbm, ⟨18, _⟩ => ⟨S1x2048, .f32⟩
  | .hbm, ⟨19, _⟩ => ⟨S1x512, .f32⟩
  | .hbm, ⟨20, _⟩ => ⟨S8192x512, .f32⟩
  | .hbm, ⟨21, _⟩ => ⟨S8192x1, .f32⟩
  | .hbm, ⟨22, _⟩ => ⟨S8192, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S512x2048, .bf16⟩
  | .local _ .vmem, ⟨5, _⟩ => ⟨S1x2048, .f32⟩
  | .local _ .vmem, ⟨6, _⟩ => ⟨S2048x2048, .bf16⟩
  | .local _ .vmem, ⟨7, _⟩ => ⟨S1x2048, .f32⟩
  | .local _ .vmem, ⟨8, _⟩ => ⟨S2048x512, .bf16⟩
  | .local _ .vmem, ⟨9, _⟩ => ⟨S1x512, .f32⟩
  | .local _ .vmem, ⟨10, _⟩ => ⟨S2048x512, .bf16⟩
  | .local _ .vmem, ⟨11, _⟩ => ⟨S2048x2048, .bf16⟩
  | .local _ .vmem, ⟨12, _⟩ => ⟨S512x2048, .bf16⟩
  | .local _ .vmem, ⟨13, _⟩ => ⟨S256x512, .f32⟩
  | .local _ .vmem, ⟨14, _⟩ => ⟨S256x512, .f32⟩
  | .local _ .vmem, ⟨15, _⟩ => ⟨S256x1, .f32⟩
  | .local _ .vmem, ⟨16, _⟩ => ⟨S256x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  transposes_S512x2048_S2048x512_1_0 : S512x2048.Transposes [1, 0] S2048x512
  transposes_S2048x2048_S2048x2048_1_0 : S2048x2048.Transposes [1, 0] S2048x2048
  transposes_S2048x512_S512x2048_1_0 : S2048x512.Transposes [1, 0] S512x2048
  shapeCasts_S2048_S1x2048 : S2048.ShapeCasts S1x2048
  shapeCasts_S512_S1x512 : S512.ShapeCasts S1x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S256x512_S128x512_0_0 : ∀ a, (![0, 0] : Fin 2 → Nat) a + S128x512.size a ≤ S256x512.size a
  h_S128x512 : 0 < S128x512.numel
  broadcasts_S1x2048_S128x2048 : S1x2048.Broadcasts S128x2048
  broadcasts_S1x512_S128x512 : S1x512.Broadcasts S128x512
  reduces_S128x512_S128 : S128x512.Reduces [1] S128
  shapeCasts_S128_S128x1 : S128.ShapeCasts S128x1
  inb_S256x1_S128x1_0_0 : ∀ a, (![0, 0] : Fin 2 → Nat) a + S128x1.size a ≤ S256x1.size a
  h_S128x1 : 0 < S128x1.numel
  inb_S256x512_S128x512_128_0 : ∀ a, (![128, 0] : Fin 2 → Nat) a + S128x512.size a ≤ S256x512.size a
  inb_S256x1_S128x1_128_0 : ∀ a, (![128, 0] : Fin 2 → Nat) a + S128x1.size a ≤ S256x1.size a
  shapeCasts_S8192x1_S8192 : S8192x1.ShapeCasts S8192
  dot_S128x512_S512x2048_S128x2048_1_0_0_1_n_n_wf : DotDims.WF S128x512 S512x2048 S128x2048 [1] [0] [0] [1] [] []
  dot_S128x2048_S2048x2048_S128x2048_1_0_0_1_n_n_wf : DotDims.WF S128x2048 S2048x2048 S128x2048 [1] [0] [0] [1] [] []
  dot_S128x2048_S2048x512_S128x512_1_0_0_1_n_n_wf : DotDims.WF S128x2048 S2048x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .f32 = 32 ∨ (Rect.block (s := S8192x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S8192x512.size a
  hwx0_1 : ∀ i : grid0.Coords, EltTy.bits .f32 = 32 ∨ (Rect.block (s := S8192x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S512x2048.size a
  hwx0_2 : ∀ i : grid0.Coords, EltTy.bits .bf16 = 32 ∨ (Rect.block (s := S512x2048) S512x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .bf16 = 32 ∨ (Rect.block (s := S2048x2048) S2048x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x512.size a ≤ S2048x512.size a
  hwx0_6 : ∀ i : grid0.Coords, EltTy.bits .bf16 = 32 ∨ (Rect.block (s := S2048x512) S2048x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x512.size a ≤ S2048x512.size a
  hwx0_8 : ∀ i : grid0.Coords, EltTy.bits .bf16 = 32 ∨ (Rect.block (s := S2048x512) S2048x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x2048.size a ≤ S2048x2048.size a
  hwx0_9 : ∀ i : grid0.Coords, EltTy.bits .bf16 = 32 ∨ (Rect.block (s := S2048x2048) S2048x2048.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x2048.size a ≤ S512x2048.size a
  hwx0_10 : ∀ i : grid0.Coords, EltTy.bits .bf16 = 32 ∨ (Rect.block (s := S512x2048) S512x2048.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x512.size a ≤ S8192x512.size a
  hwx0_11 : ∀ i : grid0.Coords, EltTy.bits .f32 = 32 ∨ (Rect.block (s := S8192x512) S256x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x1.size a ≤ S8192x1.size a
  hwx0_12 : ∀ i : grid0.Coords, EltTy.bits .f32 = 32 ∨ (Rect.block (s := S8192x1) S256x1.size (cc0_transform_12 i) (hinb0_12 i)).WholeWords (EltTy.packing .f32)

variable [Facts₀]

def dot_S128x512_S512x2048_S128x2048_1_0_0_1_n_n : DotDims S128x512 S512x2048 S128x2048 where
  lhsContracting := [1]
  rhsContracting := [0]
  lhsNonContracting := [0]
  rhsNonContracting := [1]
  lhsBatch := []
  rhsBatch := []
  wf := dot_S128x512_S512x2048_S128x2048_1_0_0_1_n_n_wf
def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf
def dot_S128x2048_S2048x512_S128x512_1_0_0_1_n_n : DotDims S128x2048 S2048x512 S128x512 where
  lhsContracting := [1]
  rhsContracting := [0]
  lhsNonContracting := [0]
  rhsNonContracting := [1]
  lhsBatch := []
  rhsBatch := []
  wf := dot_S128x2048_S2048x512_S128x512_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S2048x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S2048x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S2048x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S512x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12_0) S256x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v12_1) S256x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8192x512 : Shape := ⟨2, ![8192, 512]⟩
abbrev S512x2048 : Shape := ⟨2, ![512, 2048]⟩
abbrev S2048 : Shape := ⟨1, ![2048]⟩
abbrev S2048x2048 : Shape := ⟨2, ![2048, 2048]⟩
abbrev S2048x512 : Shape := ⟨2, ![2048, 512]⟩
abbrev S512 : Shape := ⟨1, ![512]⟩
abbrev S8192x2048 : Shape := ⟨2, ![8192, 2048]⟩
abbrev S1x2048 : Shape := ⟨2, ![1, 2048]⟩
abbrev S_ : Shape := ⟨0, ![]⟩
abbrev S1x512 : Shape := ⟨2, ![1, 512]⟩
abbrev S8192 : Shape := ⟨1, ![8192]⟩

abbrev nBuf : Space → Nat
  | .hbm => 159
  | .vmem => 0
  | .smem => 0
  | _ => 0

abbrev hbmTy0_0 (i : Nat) : BufTy := match i % 128 with
  | 0 => ⟨S8192x512, .f32⟩
  | 1 => ⟨S8192x512, .f32⟩
  | 2 => ⟨S512x2048, .f32⟩
  | 3 => ⟨S2048, .f32⟩
  | 4 => ⟨S2048x2048, .f32⟩
  | 5 => ⟨S2048, .f32⟩
  | 6 => ⟨S2048x512, .f32⟩
  | 7 => ⟨S512, .f32⟩
  | 8 => ⟨S8192x2048, .f32⟩
  | 9 => ⟨S1x2048, .f32⟩
  | 10 => ⟨S8192x2048, .f32⟩
  | 11 => ⟨S8192x2048, .f32⟩
  | 12 => ⟨S8192x2048, .f32⟩
  | 13 => ⟨S_, .f32⟩
  | 14 => ⟨S8192x2048, .f32⟩
  | 15 => ⟨S8192x2048, .f32⟩
  | 16 => ⟨S8192x2048, .f32⟩
  | 17 => ⟨S1x2048, .f32⟩
  | 18 => ⟨S8192x2048, .f32⟩
  | 19 => ⟨S8192x2048, .f32⟩
  | 20 => ⟨S8192x2048, .f32⟩
  | 21 => ⟨S_, .f32⟩
  | 22 => ⟨S8192x2048, .f32⟩
  | 23 => ⟨S8192x2048, .f32⟩
  | 24 => ⟨S8192x512, .f32⟩
  | 25 => ⟨S1x512, .f32⟩
  | 26 => ⟨S8192x512, .f32⟩
  | 27 => ⟨S8192x512, .f32⟩
  | 28 => ⟨S_, .f32⟩
  | 29 => ⟨S8192, .f32⟩
  | 30 => ⟨S8192x2048, .f32⟩
  | 31 => ⟨S8192x2048, .f32⟩
  | 32 => ⟨S8192x2048, .f32⟩
  | 33 => ⟨S8192x2048, .f32⟩
  | 34 => ⟨S8192x2048, .f32⟩
  | 35 => ⟨S8192x2048, .f32⟩
  | 36 => ⟨S8192x2048, .f32⟩
  | 37 => ⟨S8192x2048, .f32⟩
  | 38 => ⟨S8192x512, .f32⟩
  | 39 => ⟨S8192x512, .f32⟩
  | 40 => ⟨S_, .f32⟩
  | 41 => ⟨S8192, .f32⟩
  | 42 => ⟨S_, .f32⟩
  | 43 => ⟨S8192, .f32⟩
  | 44 => ⟨S8192, .f32⟩
  | 45 => ⟨S8192, .f32⟩
  | 46 => ⟨S8192x2048, .f32⟩
  | 47 => ⟨S8192x2048, .f32⟩
  | 48 => ⟨S8192x2048, .f32⟩
  | 49 => ⟨S8192x2048, .f32⟩
  | 50 => ⟨S8192x2048, .f32⟩
  | 51 => ⟨S8192x2048, .f32⟩
  | 52 => ⟨S8192x2048, .f32⟩
  | 53 => ⟨S8192x2048, .f32⟩
  | 54 => ⟨S8192x512, .f32⟩
  | 55 => ⟨S8192x512, .f32⟩
  | 56 => ⟨S_, .f32⟩
  | 57 => ⟨S8192, .f32⟩
  | 58 => ⟨S_, .f32⟩
  | 59 => ⟨S8192, .f32⟩
  | 60 => ⟨S8192, .f32⟩
  | 61 => ⟨S8192, .f32⟩
  | 62 => ⟨S8192x2048, .f32⟩
  | 63 => ⟨S8192x2048, .f32⟩
  | 64 => ⟨S8192x2048, .f32⟩
  | 65 => ⟨S8192x2048, .f32⟩
  | 66 => ⟨S8192x2048, .f32⟩
  | 67 => ⟨S8192x2048, .f32⟩
  | 68 => ⟨S8192x2048, .f32⟩
  | 69 => ⟨S8192x2048, .f32⟩
  | 70 => ⟨S8192x512, .f32⟩
  | 71 => ⟨S8192x512, .f32⟩
  | 72 => ⟨S_, .f32⟩
  | 73 => ⟨S8192, .f32⟩
  | 74 => ⟨S_, .f32⟩
  | 75 => ⟨S8192, .f32⟩
  | 76 => ⟨S8192, .f32⟩
  | 77 => ⟨S8192, .f32⟩
  | 78 => ⟨S8192x2048, .f32⟩
  | 79 => ⟨S8192x2048, .f32⟩
  | 80 => ⟨S8192x2048, .f32⟩
  | 81 => ⟨S8192x2048, .f32⟩
  | 82 => ⟨S8192x2048, .f32⟩
  | 83 => ⟨S8192x2048, .f32⟩
  | 84 => ⟨S8192x2048, .f32⟩
  | 85 => ⟨S8192x2048, .f32⟩
  | 86 => ⟨S8192x512, .f32⟩
  | 87 => ⟨S8192x512, .f32⟩
  | 88 => ⟨S_, .f32⟩
  | 89 => ⟨S8192, .f32⟩
  | 90 => ⟨S_, .f32⟩
  | 91 => ⟨S8192, .f32⟩
  | 92 => ⟨S8192, .f32⟩
  | 93 => ⟨S8192, .f32⟩
  | 94 => ⟨S8192x2048, .f32⟩
  | 95 => ⟨S8192x2048, .f32⟩
  | 96 => ⟨S8192x2048, .f32⟩
  | 97 => ⟨S8192x2048, .f32⟩
  | 98 => ⟨S8192x2048, .f32⟩
  | 99 => ⟨S8192x2048, .f32⟩
  | 100 => ⟨S8192x2048, .f32⟩
  | 101 => ⟨S8192x2048, .f32⟩
  | 102 => ⟨S8192x512, .f32⟩
  | 103 => ⟨S8192x512, .f32⟩
  | 104 => ⟨S_, .f32⟩
  | 105 => ⟨S8192, .f32⟩
  | 106 => ⟨S_, .f32⟩
  | 107 => ⟨S8192, .f32⟩
  | 108 => ⟨S8192, .f32⟩
  | 109 => ⟨S8192, .f32⟩
  | 110 => ⟨S8192x2048, .f32⟩
  | 111 => ⟨S8192x2048, .f32⟩
  | 112 => ⟨S8192x2048, .f32⟩
  | 113 => ⟨S8192x2048, .f32⟩
  | 114 => ⟨S8192x2048, .f32⟩
  | 115 => ⟨S8192x2048, .f32⟩
  | 116 => ⟨S8192x2048, .f32⟩
  | 117 => ⟨S8192x2048, .f32⟩
  | 118 => ⟨S8192x512, .f32⟩
  | 119 => ⟨S8192x512, .f32⟩
  | 120 => ⟨S_, .f32⟩
  | 121 => ⟨S8192, .f32⟩
  | 122 => ⟨S_, .f32⟩
  | 123 => ⟨S8192, .f32⟩
  | 124 => ⟨S8192, .f32⟩
  | 125 => ⟨S8192, .f32⟩
  | 126 => ⟨S8192x2048, .f32⟩
  | 127 => ⟨S8192x2048, .f32⟩
  | _ => ⟨S8192x512, .f32⟩

abbrev hbmTy0_1 (i : Nat) : BufTy := match i % 128 with
  | 0 => ⟨S8192x2048, .f32⟩
  | 1 => ⟨S8192x2048, .f32⟩
  | 2 => ⟨S8192x2048, .f32⟩
  | 3 => ⟨S8192x2048, .f32⟩
  | 4 => ⟨S8192x2048, .f32⟩
  | 5 => ⟨S8192x2048, .f32⟩
  | 6 => ⟨S8192x512, .f32⟩
  | 7 => ⟨S8192x512, .f32⟩
  | 8 => ⟨S_, .f32⟩
  | 9 => ⟨S8192, .f32⟩
  | 10 => ⟨S_, .f32⟩
  | 11 => ⟨S8192, .f32⟩
  | 12 => ⟨S8192, .f32⟩
  | 13 => ⟨S8192, .f32⟩
  | 14 => ⟨S8192x2048, .f32⟩
  | 15 => ⟨S8192x2048, .f32⟩
  | 16 => ⟨S8192x2048, .f32⟩
  | 17 => ⟨S8192x2048, .f32⟩
  | 18 => ⟨S8192x2048, .f32⟩
  | 19 => ⟨S8192x2048, .f32⟩
  | 20 => ⟨S8192x2048, .f32⟩
  | 21 => ⟨S8192x2048, .f32⟩
  | 22 => ⟨S8192x512, .f32⟩
  | 23 => ⟨S8192x512, .f32⟩
  | 24 => ⟨S_, .f32⟩
  | 25 => ⟨S8192, .f32⟩
  | 26 => ⟨S_, .f32⟩
  | 27 => ⟨S8192, .f32⟩
  | 28 => ⟨S8192, .f32⟩
  | 29 => ⟨S8192, .f32⟩
  | 30 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_6 : Ref sig .tc := ⟨.hbm, 72, rfl⟩
abbrev main_v57 : Ref sig .tc := ⟨.hbm, 73, rfl⟩
abbrev main_cst_7 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_8 : Ref sig .tc := ⟨.hbm, 88, rfl⟩
abbrev main_v71 : Ref sig .tc := ⟨.hbm, 89, rfl⟩
abbrev main_cst_9 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_10 : Ref sig .tc := ⟨.hbm, 104, rfl⟩
abbrev main_v85 : Ref sig .tc := ⟨.hbm, 105, rfl⟩
abbrev main_cst_11 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_cst_12 : Ref sig .tc := ⟨.hbm, 120, rfl⟩
abbrev main_v99 : Ref sig .tc := ⟨.hbm, 121, rfl⟩
abbrev main_cst_13 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_cst_14 : Ref sig .tc := ⟨.hbm, 136, rfl⟩
abbrev main_v113 : Ref sig .tc := ⟨.hbm, 137, rfl⟩
abbrev main_cst_15 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_cst_16 : Ref sig .tc := ⟨.hbm, 152, rfl⟩
abbrev main_v127 : Ref sig .tc := ⟨.hbm, 153, rfl⟩
abbrev main_cst_17 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192 : S_.BroadcastsInDim S8192 (![] : Fin 0 → Fin S8192.rank)
  reducesTo_S8192x512_S8192_d1 : S8192x512.ReducesTo [1] S8192
  h_S_ : 0 < S_.numel
  dot_S8192x512_S512x2048_S8192x2048_1_0_0_1_n_n_wf : DotDims.WF S8192x512 S512x2048 S8192x2048 [1] [0] [0] [1] [] []
  dot_S8192x2048_S2048x2048_S8192x2048_1_0_0_1_n_n_wf : DotDims.WF S8192x2048 S2048x2048 S8192x2048 [1] [0] [0] [1] [] []
  dot_S8192x2048_S2048x512_S8192x512_1_0_0_1_n_n_wf : DotDims.WF S8192x2048 S2048x512 S8192x512 [1] [0] [0] [1] [] []
  dot_S8192x512_S2048x512_S8192x2048_1_1_0_0_n_n_wf : DotDims.WF S8192x512 S2048x512 S8192x2048 [1] [1] [0] [0] [] []
  dot_S8192x2048_S2048x2048_S8192x2048_1_1_0_0_n_n_wf : DotDims.WF S8192x2048 S2048x2048 S8192x2048 [1] [1] [0] [0] [] []
  dot_S8192x2048_S512x2048_S8192x512_1_1_0_0_n_n_wf : DotDims.WF S8192x2048 S512x2048 S8192x512 [1] [1] [0] [0] [] []

variable [Facts₀]

def dot_S8192x512_S512x2048_S8192x2048_1_0_0_1_n_n : DotDims S8192x512 S512x2048 S8192x2048 where
  lhsContracting := [1]
  rhsContracting := [0]
  lhsNonContracting := [0]
  rhsNonContracting := [1]
  lhsBatch := []
  rhsBatch := []
  wf := dot_S8192x512_S512x2048_S8192x2048_1_0_0_1_n_n_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf
def dot_S8192x2048_S2048x512_S8192x512_1_0_0_1_n_n : DotDims S8192x2048 S2048x512 S8192x512 where
  lhsContracting := [1]
  rhsContracting := [0]
  lhsNonContracting := [0]
  rhsNonContracting := [1]
  lhsBatch := []
  rhsBatch := []
  wf := dot_S8192x2048_S2048x512_S8192x512_1_0_0_1_n_n_wf
def dot_S8192x512_S2048x512_S8192x2048_1_1_0_0_n_n : DotDims S8192x512 S2048x512 S8192x2048 where
  lhsContracting := [1]
  rhsContracting := [1]
  lhsNonContracting := [0]
  rhsNonContracting := [0]
  lhsBatch := []
  rhsBatch := []
  wf := dot_S8192x512_S2048x512_S8192x2048_1_1_0_0_n_n_wf
def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf
def dot_S8192x2048_S512x2048_S8192x512_1_1_0_0_n_n : DotDims S8192x2048 S512x2048 S8192x512 where
  lhsContracting := [1]
  rhsContracting := [1]
  lhsNonContracting := [0]
  rhsNonContracting := [0]
  lhsBatch := []
  rhsBatch := []
  wf := dot_S8192x2048_S512x2048_S8192x512_1_1_0_0_n_n_wf

class Facts : Prop extends Facts₀ where

variable [Facts]
-- ==== Proof.Spec.lean ====
/-
  The mathematics both programs compute, one batch row at a time.

  A row `x : Fin 512 → EReal` of the input goes through a three-layer perceptron
      h1 = tanh (x · W1 + b1),  h2 = tanh (h1 · W2 + b2),  g = h2 · W3 + b3,  z = x + g.
  The log-determinant estimate of the row is the truncated power series
      ∑_{k=1..8} c_k · ⟨w_k, v⟩,     w_0 = v (the probe row),   w_k = Jᵀ w_{k-1},
  where `Jᵀ` pulls a cotangent back through the three layers: through `W3`, times the derivative of
  the second `tanh`, through `W2`, times the derivative of the first `tanh`, through `W1`.

  The two programs spell the derivative of `tanh` at an activation `a` differently:
    * `stepK`: the cotangent times `1 - a·a`;
    * `stepR`: `q + q·a` with `q` the cotangent times `1 - a`.
  On extended reals these agree when the cotangent and the activation are finite
  (`q + q·a = g·(1-a)·(1+a) = g·(1-a²)` is a ring identity of ℝ); the activations are values of
  `tanh`, always finite, and the cotangents are finite sums of finite products as soon as the weights
  and the probe are finite.  That is the whole content of `LrowK_eq_LrowR`.
-/
import Idealize.ShloMosaic.PureOps.Ideal
import Idealize.ShloMosaic.Lib.IdealHost
import Idealize.ShloMosaic.Lib.ValueIdx

noncomputable section

namespace Cert.Flow

open Idealize.ShloMosaic Idealize.ShloMosaic.ValueIdx

/-- An extended real that is a real number. -/
def IsFin (x : EReal) : Prop := ∃ r : ℝ, x = (r : EReal)

/-- The literal `1.0` and `0.0` of both programs, and the eight series coefficients
    `1, -1/2, f32(1/3), -1/4, f32(1/5), f32(-1/6), f32(1/7), -1/8` as the words both programs carry. -/
def one32 : EReal := Ideal.ofBits .f32 0x3F800000#32
def zero32 : EReal := Ideal.ofBits .f32 0x00000000#32
def c1 : EReal := Ideal.ofBits .f32 0x3F800000#32
def c2 : EReal := Ideal.ofBits .f32 0xBF000000#32
def c3 : EReal := Ideal.ofBits .f32 0x3EAAAAAB#32
def c4 : EReal := Ideal.ofBits .f32 0xBE800000#32
def c5 : EReal := Ideal.ofBits .f32 0x3E4CCCCD#32
def c6 : EReal := Ideal.ofBits .f32 0xBE2AAAAB#32
def c7 : EReal := Ideal.ofBits .f32 0x3E124925#32
def c8 : EReal := Ideal.ofBits .f32 0xBE000000#32

section Rows

variable (W1 : Fin 512 → Fin 2048 → EReal) (b1 : Fin 2048 → EReal)
  (W2 : Fin 2048 → Fin 2048 → EReal) (b2 : Fin 2048 → EReal)
  (W3 : Fin 2048 → Fin 512 → EReal) (b3 : Fin 512 → EReal)

/-- First hidden layer of a row. -/
def hid1 (x : Fin 512 → EReal) (j : Fin 2048) : EReal := Ideal.tanh ((∑ k : Fin 512, x k * W1 k j) + b1 j)
/-- Second hidden layer of a row. -/
def hid2 (x : Fin 512 → EReal) (j : Fin 2048) : EReal :=
  Ideal.tanh ((∑ k : Fin 2048, hid1 W1 b1 x k * W2 k j) + b2 j)
/-- The residual block's output row: `x + (h2 · W3 + b3)`. -/
def zRow (x : Fin 512 → EReal) (q : Fin 512) : EReal :=
  x q + ((∑ k : Fin 2048, hid2 W1 b1 W2 b2 x k * W3 k q) + b3 q)

/-- A cotangent row pulled back through `W3`, `W2`, `W1` (each contracted over its OUTPUT axis). -/
def pull3 (w : Fin 512 → EReal) (j : Fin 2048) : EReal := ∑ d : Fin 512, w d * W3 j d
def pull2 (u : Fin 2048 → EReal) (h : Fin 2048) : EReal := ∑ j : Fin 2048, u j * W2 h j
def pull1 (u : Fin 2048 → EReal) (q : Fin 512) : EReal := ∑ h : Fin 2048, u h * W1 q h

/-- One application of `Jᵀ` with the derivative of `tanh` written `1 - a·a` (activations `a1`, `a2`). -/
def stepK (a1 a2 : Fin 2048 → EReal) (w : Fin 512 → EReal) : Fin 512 → EReal :=
  pull1 W1 fun h => pull2 W2 (fun j => pull3 W3 w j * (one32 - a2 j * a2 j)) h * (one32 - a1 h * a1 h)

/-- The same with the derivative written `q + q·a`, `q = g·(1 - a)`. -/
def stepR (a1 a2 : Fin 2048 → EReal) (w : Fin 512 → EReal) : Fin 512 → EReal :=
  pull1 W1 fun h =>
    pull2 W2 (fun j => pull3 W3 w j * (one32 - a2 j) + pull3 W3 w j * (one32 - a2 j) * a2 j) h * (one32 - a1 h)
      + pull2 W2 (fun j => pull3 W3 w j * (one32 - a2 j) + pull3 W3 w j * (one32 - a2 j) * a2 j) h * (one32 - a1 h) * a1 h

end Rows

/-- The pairing of two rows. -/
def dotv (w v : Fin 512 → EReal) : EReal := ∑ d : Fin 512, w d * v d

/-- The eight-term series, from the eight pairings, in the order both programs add it up. -/
def series (s : ℕ → EReal) : EReal :=
  (((((((zero32 + c1 * s 1) + c2 * s 2) + c3 * s 3) + c4 * s 4) + c5 * s 5) + c6 * s 6) + c7 * s 7) + c8 * s 8

section Rows2
variable (W1 : Fin 512 → Fin 2048 → EReal) (W2 : Fin 2048 → Fin 2048 → EReal) (W3 : Fin 2048 → Fin 512 → EReal)

/-- The series of a row in the first spelling: the `k`-th pairing is `⟨(Jᵀ)^k v, v⟩`. -/
def LrowK (a1 a2 : Fin 2048 → EReal) (v : Fin 512 → EReal) : EReal :=
  series fun k => dotv ((stepK W1 W2 W3 a1 a2)^[k] v) v
/-- The series of a row in the second spelling; each pairing is a sum started from the literal zero. -/
def LrowR (a1 a2 : Fin 2048 → EReal) (v : Fin 512 → EReal) : EReal :=
  series fun k => zero32 + dotv ((stepR W1 W2 W3 a1 a2)^[k] v) v
end Rows2

/-! ## The whole arrays -/

abbrev A8192x512 : Shape := ⟨2, ![8192, 512]⟩
abbrev A512x2048 : Shape := ⟨2, ![512, 2048]⟩
abbrev A2048x2048 : Shape := ⟨2, ![2048, 2048]⟩
abbrev A2048x512 : Shape := ⟨2, ![2048, 512]⟩
abbrev A2048 : Shape := ⟨1, ![2048]⟩
abbrev A512 : Shape := ⟨1, ![512]⟩
abbrev A8192 : Shape := ⟨1, ![8192]⟩

section Arrays
variable (x v : A8192x512.Idx → EReal) (W1 : A512x2048.Idx → EReal) (b1 : A2048.Idx → EReal)
  (W2 : A2048x2048.Idx → EReal) (b2 : A2048.Idx → EReal) (W3 : A2048x512.Idx → EReal) (b3 : A512.Idx → EReal)

/-- Row `r` of a [8192, 512] array, and the weights as functions of two coordinates. -/
def rowOf (x : A8192x512.Idx → EReal) (r : Fin 8192) : Fin 512 → EReal := fun d => x (ix2 r d)
def mat1 (W1 : A512x2048.Idx → EReal) : Fin 512 → Fin 2048 → EReal := fun k j => W1 (ix2 k j)
def mat2 (W2 : A2048x2048.Idx → EReal) : Fin 2048 → Fin 2048 → EReal := fun k j => W2 (ix2 k j)
def mat3 (W3 : A2048x512.Idx → EReal) : Fin 2048 → Fin 512 → EReal := fun k j => W3 (ix2 k j)
def vec2048 (b : A2048.Idx → EReal) : Fin 2048 → EReal := fun j => b (ix1 j)
def vec512 (b : A512.Idx → EReal) : Fin 512 → EReal := fun j => b (ix1 j)

/-- The first result: the block's output, row by row. -/
def Zrc (r : Fin 8192) (q : Fin 512) : EReal :=
  zRow (mat1 W1) (vec2048 b1) (mat2 W2) (vec2048 b2) (mat3 W3) (vec512 b3) (rowOf x r) q
def Zfun : A8192x512.Idx → EReal := fun i => Zrc x W1 b1 W2 b2 W3 b3 (i 0) (i 1)

/-- The second result, in the first spelling … -/
def LKr (r : Fin 8192) : EReal :=
  LrowK (mat1 W1) (mat2 W2) (mat3 W3) (hid1 (mat1 W1) (vec2048 b1) (rowOf x r))
    (hid2 (mat1 W1) (vec2048 b1) (mat2 W2) (vec2048 b2) (rowOf x r)) (rowOf v r)
def LfunK : A8192.Idx → EReal := fun i => LKr x v W1 b1 W2 b2 W3 (i 0)
/-- … and in the second. -/
def LRr (r : Fin 8192) : EReal :=
  LrowR (mat1 W1) (mat2 W2) (mat3 W3) (hid1 (mat1 W1) (vec2048 b1) (rowOf x r))
    (hid2 (mat1 W1) (vec2048 b1) (mat2 W2) (vec2048 b2) (rowOf x r)) (rowOf v r)
def LfunR : A8192.Idx → EReal := fun i => LRr x v W1 b1 W2 b2 W3 (i 0)

theorem Zfun_ix2 (r : Fin 8192) (q : Fin 512) : Zfun x W1 b1 W2 b2 W3 b3 (ix2 r q) = Zrc x W1 b1 W2 b2 W3 b3 r q := rfl
theorem LfunK_ix1 (r : Fin 8192) : LfunK x v W1 b1 W2 b2 W3 (ix1 r) = LKr x v W1 b1 W2 b2 W3 r := rfl
theorem LfunR_ix1 (r : Fin 8192) : LfunR x v W1 b1 W2 b2 W3 (ix1 r) = LRr x v W1 b1 W2 b2 W3 r := rfl

end Arrays

end Cert.Flow

end
-- ==== Proof.SpecLaws.lean ====
/-
  The two spellings of the log-determinant series agree on finite data.

  The derivative of `tanh` at an activation `a` is written `1 - a·a` in one spelling and, in the
  other, `q + q·a` with `q = g·(1 - a)`.  For real `g` and `a`,
      g·(1 - a) + g·(1 - a)·a = g·(1 - a·a)
  is an identity of the field ℝ.  On extended reals it fails at the infinities, so finiteness is
  carried through the whole pull-back: a value of `tanh` is always real, a finite sum of products of
  reals is real, hence every cotangent met on the way is real once the probe and the weights are.
-/
import proofs.«406076_j91319594647707_3_alg».proof.Proof.Spec

noncomputable section

namespace Cert.Flow

open Idealize.ShloMosaic Idealize.ShloMosaic.ValueIdx

/-! ## Real numbers inside the extended reals -/

theorem IsFin.add {a b : EReal} (ha : IsFin a) (hb : IsFin b) : IsFin (a + b) := by
  obtain ⟨r, rfl⟩ := ha
  obtain ⟨s, rfl⟩ := hb
  exact ⟨r + s, (EReal.coe_add r s).symm⟩

theorem IsFin.mul {a b : EReal} (ha : IsFin a) (hb : IsFin b) : IsFin (a * b) := by
  obtain ⟨r, rfl⟩ := ha
  obtain ⟨s, rfl⟩ := hb
  exact ⟨r * s, (EReal.coe_mul r s).symm⟩

theorem IsFin.sub {a b : EReal} (ha : IsFin a) (hb : IsFin b) : IsFin (a - b) := by
  obtain ⟨r, rfl⟩ := ha
  obtain ⟨s, rfl⟩ := hb
  exact ⟨r - s, (EReal.coe_sub r s).symm⟩

/-- The literal one is the real number one. -/
theorem one32_eq : one32 = ((1 : ℝ) : EReal) := by
  rw [one32, Ideal.ofBits_one_f32, EReal.coe_one]

/-- The literal zero is zero. -/
theorem zero32_eq : zero32 = 0 := by
  rw [zero32, Ideal.ofBits_zero_f32]

theorem isFin_one32 : IsFin one32 := ⟨1, one32_eq⟩

/-- A value of `tanh` is a real number, whatever the argument: the two infinities go to `∓1`. -/
theorem isFin_tanh (x : EReal) : IsFin (Ideal.tanh x) := by
  induction x using EReal.rec with
  | bot => exact ⟨-1, by rw [Ideal.tanh_bot, EReal.coe_neg, EReal.coe_one]⟩
  | top => exact ⟨1, by rw [Ideal.tanh_top, EReal.coe_one]⟩
  | coe r => exact ⟨Real.tanh r, rfl⟩

/-- A finite sum of real numbers is a real number. -/
theorem isFin_sum {ι : Type*} (s : Finset ι) (f : ι → EReal) (h : ∀ i ∈ s, IsFin (f i)) :
    IsFin (∑ i ∈ s, f i) := by
  classical
  induction s using Finset.induction_on with
  | empty => exact ⟨0, by rw [Finset.sum_empty, EReal.coe_zero]⟩
  | insert a s ha ih =>
    rw [Finset.sum_insert ha]
    exact (h a (Finset.mem_insert_self a s)).add (ih fun i hi => h i (Finset.mem_insert_of_mem hi))

/-- The two spellings of the derivative of `tanh`, at a real cotangent and a real activation. -/
theorem deriv_spelling {g a : EReal} (hg : IsFin g) (ha : IsFin a) :
    g * (one32 - a) + g * (one32 - a) * a = g * (one32 - a * a) := by
  obtain ⟨r, rfl⟩ := hg
  obtain ⟨s, rfl⟩ := ha
  rw [one32_eq, ← EReal.coe_sub, ← EReal.coe_mul, ← EReal.coe_mul, ← EReal.coe_add, ← EReal.coe_mul,
    ← EReal.coe_sub, ← EReal.coe_mul]
  congr 1
  ring

/-- Two maps that agree wherever an invariant holds, one of them keeping the invariant, have the same
    iterates from any point where the invariant holds; and the invariant holds along the way. -/
theorem iterate_eq_of_invariant {α : Type*} (f g : α → α) (P : α → Prop) (hfg : ∀ w, P w → f w = g w)
    (hP : ∀ w, P w → P (g w)) {v : α} (hv : P v) (k : ℕ) : f^[k] v = g^[k] v ∧ P (g^[k] v) := by
  induction k with
  | zero =>
    rw [Function.iterate_zero, Function.iterate_zero]
    exact ⟨rfl, hv⟩
  | succ k ih =>
    rw [Function.iterate_succ_apply', Function.iterate_succ_apply', ih.1]
    exact ⟨hfg _ ih.2, hP _ ih.2⟩

/-! ## Rows -/

section Rows

variable (W1 : Fin 512 → Fin 2048 → EReal) (W2 : Fin 2048 → Fin 2048 → EReal) (W3 : Fin 2048 → Fin 512 → EReal)

theorem isFin_hid1 (b1 : Fin 2048 → EReal) (x : Fin 512 → EReal) (j : Fin 2048) : IsFin (hid1 W1 b1 x j) :=
  isFin_tanh _

theorem isFin_hid2 (b1 : Fin 2048 → EReal) (b2 : Fin 2048 → EReal) (x : Fin 512 → EReal) (j : Fin 2048) :
    IsFin (hid2 W1 b1 W2 b2 x j) :=
  isFin_tanh _

theorem isFin_pull3 (hW3 : ∀ k j, IsFin (W3 k j)) {w : Fin 512 → EReal} (hw : ∀ d, IsFin (w d)) (j : Fin 2048) :
    IsFin (pull3 W3 w j) :=
  isFin_sum _ _ fun d _ => (hw d).mul (hW3 j d)

theorem isFin_pull2 (hW2 : ∀ k j, IsFin (W2 k j)) {u : Fin 2048 → EReal} (hu : ∀ j, IsFin (u j)) (h : Fin 2048) :
    IsFin (pull2 W2 u h) :=
  isFin_sum _ _ fun j _ => (hu j).mul (hW2 h j)

theorem isFin_pull1 (hW1 : ∀ k j, IsFin (W1 k j)) {u : Fin 2048 → EReal} (hu : ∀ j, IsFin (u j)) (q : Fin 512) :
    IsFin (pull1 W1 u q) :=
  isFin_sum _ _ fun h _ => (hu h).mul (hW1 q h)

variable {W1 W2 W3}
variable (hW1 : ∀ k j, IsFin (W1 k j)) (hW2 : ∀ k j, IsFin (W2 k j)) (hW3 : ∀ k j, IsFin (W3 k j))
variable {a1 a2 : Fin 2048 → EReal} (ha1 : ∀ j, IsFin (a1 j)) (ha2 : ∀ j, IsFin (a2 j))

include hW2 hW3 ha1 ha2 in
/-- On a real cotangent row the two spellings of one pull-back step agree. -/
theorem stepR_eq_stepK {w : Fin 512 → EReal} (hw : ∀ d, IsFin (w d)) :
    stepR W1 W2 W3 a1 a2 w = stepK W1 W2 W3 a1 a2 w := by
  have hin : (fun j => pull3 W3 w j * (one32 - a2 j) + pull3 W3 w j * (one32 - a2 j) * a2 j)
      = fun j => pull3 W3 w j * (one32 - a2 j * a2 j) :=
    funext fun j => deriv_spelling (isFin_pull3 W3 hW3 hw j) (ha2 j)
  have h2 : ∀ h, IsFin (pull2 W2 (fun j => pull3 W3 w j * (one32 - a2 j * a2 j)) h) := fun h =>
    isFin_pull2 W2 hW2 (fun j => (isFin_pull3 W3 hW3 hw j).mul (isFin_one32.sub ((ha2 j).mul (ha2 j)))) h
  unfold stepR stepK
  rw [hin]
  exact congrArg (pull1 W1) (funext fun h => deriv_spelling (h2 h) (ha1 h))

include hW1 hW2 hW3 ha1 ha2 in
/-- One pull-back step keeps a real cotangent row real. -/
theorem isFin_stepK {w : Fin 512 → EReal} (hw : ∀ d, IsFin (w d)) (q : Fin 512) :
    IsFin (stepK W1 W2 W3 a1 a2 w q) := by
  unfold stepK
  refine isFin_pull1 W1 hW1 (fun h => ?_) q
  refine IsFin.mul ?_ (isFin_one32.sub ((ha1 h).mul (ha1 h)))
  exact isFin_pull2 W2 hW2 (fun j => (isFin_pull3 W3 hW3 hw j).mul (isFin_one32.sub ((ha2 j).mul (ha2 j)))) h

include hW1 hW2 hW3 ha1 ha2 in
/-- Iterating: the `k`-th cotangent is the same in both spellings, and real. -/
theorem iter_stepR_eq_stepK {v : Fin 512 → EReal} (hv : ∀ d, IsFin (v d)) (k : ℕ) :
    (stepR W1 W2 W3 a1 a2)^[k] v = (stepK W1 W2 W3 a1 a2)^[k] v
      ∧ ∀ d, IsFin ((stepK W1 W2 W3 a1 a2)^[k] v d) :=
  iterate_eq_of_invariant (stepR W1 W2 W3 a1 a2) (stepK W1 W2 W3 a1 a2) (fun w => ∀ d, IsFin (w d))
    (fun _ hw => stepR_eq_stepK hW2 hW3 ha1 ha2 hw) (fun _ hw => isFin_stepK hW1 hW2 hW3 ha1 ha2 hw) hv k

include hW1 hW2 hW3 ha1 ha2 in
/-- The series of a row is the same in both spellings: the pairings agree term by term, the extra
    literal zero in front of each pairing adds nothing, and the coefficients are never looked at. -/
theorem LrowK_eq_LrowR {v : Fin 512 → EReal} (hv : ∀ d, IsFin (v d)) :
    LrowK W1 W2 W3 a1 a2 v = LrowR W1 W2 W3 a1 a2 v := by
  unfold LrowK LrowR
  refine congrArg series (funext fun k => ?_)
  rw [zero32_eq, zero_add, (iter_stepR_eq_stepK hW1 hW2 hW3 ha1 ha2 hv k).1]

end Rows

/-! ## The whole arrays -/

/-- With a finite probe array and finite weights the two spellings of the series are the same function. -/
theorem LfunK_eq_LfunR (x v : A8192x512.Idx → EReal) (W1 : A512x2048.Idx → EReal) (b1 : A2048.Idx → EReal)
    (W2 : A2048x2048.Idx → EReal) (b2 : A2048.Idx → EReal) (W3 : A2048x512.Idx → EReal)
    (hv : ∀ i, IsFin (v i)) (hW1 : ∀ i, IsFin (W1 i)) (hW2 : ∀ i, IsFin (W2 i)) (hW3 : ∀ i, IsFin (W3 i)) :
    LfunK x v W1 b1 W2 b2 W3 = LfunR x v W1 b1 W2 b2 W3 := by
  funext i
  show LKr x v W1 b1 W2 b2 W3 (i 0) = LRr x v W1 b1 W2 b2 W3 (i 0)
  unfold LKr LRr
  exact LrowK_eq_LrowR (fun k j => hW1 (ix2 k j)) (fun k j => hW2 (ix2 k j)) (fun k j => hW3 (ix2 k j))
    (fun j => isFin_hid1 _ _ _ j) (fun j => isFin_hid2 _ _ _ _ _ j) (fun d => hv (ix2 (i 0) d))

end Cert.Flow

end
-- ==== Proof.Finite.lean ====
/-
  The precondition says every entry of every argument array is a real number.

  The printed predicate is, for each of the eight argument arrays, "all entries have absolute value
  below +∞", the eight answers and-ed together, and the precondition says the result is 1.  An "and"
  of one-bit words is 1 exactly when both are; a reduction by "and" over a whole array is 1 only if
  every entry is; and on extended reals `max x (-x) < ⊤` rules out both infinities, which leaves
  the real numbers.
-/
import proofs.«406076_j91319594647707_3_alg».proof.Defs
import proofs.«406076_j91319594647707_3_alg».proof.Proof.Gen.Pre_finite_inputs
import proofs.«406076_j91319594647707_3_alg».proof.Proof.Spec
import Idealize.ShloMosaic.Lib.ReduceAll
import Idealize.ShloMosaic.Lib.StableHlo.Predicate

noncomputable section

namespace Cert.Flow

open Idealize.ShloMosaic Idealize.SL.Sem Cert.KernelIdeal

/-- The shape of a scalar has exactly one index. -/
instance subsingleton_scalarIdx : Subsingleton (⟨0, ![]⟩ : Shape).Idx := ⟨fun _ _ => funext fun d => d.elim0⟩

/-- The word `0x7F800000` is `+∞`. -/
theorem ofBits_posInf : Ideal.ofBits .f32 0x7F800000#32 = ⊤ := by simp [Ideal.ofBits, Ideal.ieee]

/-- An extended real whose absolute value is below `+∞` is a real number. -/
theorem isFin_of_abs_lt_top (x : EReal) (h : max x (-x) < ⊤) : IsFin x := by
  induction x using EReal.rec with
  | bot => simp at h
  | top => simp at h
  | coe r => exact ⟨r, rfl⟩

/-- One conjunct of the printed predicate, at any shape: if "every `|x|` is below `+∞`" reduces to 1,
    every entry of `x` is a real number. -/
theorem entries_real {s : Shape} {axes : List (Fin s.rank)}
    (hb : (⟨0, ![]⟩ : Shape).BroadcastsInDim s (![] : Fin 0 → Fin s.rank))
    (hr : s.ReducesTo axes (⟨0, ![]⟩ : Shape)) (h0 : 0 < (⟨0, ![]⟩ : Shape).numel)
    (x : FVec Ideal s .f32) (j : (⟨0, ![]⟩ : Shape).Idx)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr h0 j = 1#1)
    (i : s.Idx) : IsFin (x i) := by
  have hi := Host.reduce_andi_all _ _ hr h0 j e i
  rw [ValueIdx.cmpf_apply, StableHlo.Predicate.bcast_scalar hb h0, ValueIdx.constant_apply, ofBits_posInf] at hi
  have h2 : BitVec.ofBool (decide (max (x i) (-(x i)) < (⊤ : EReal))) = 1#1 := hi
  exact isFin_of_abs_lt_top _ (of_decide_eq_true ((StableHlo.Predicate.ofBool_eq_one_iff _).1 h2))

/-- Under the precondition the probe array and the three weight matrices hold real numbers only. -/
theorem fin_of_pre [hPre : Cert.Pre_finite_inputs.Facts] (m : (ℓ : Loc nD τ sig) → Buf (Elt Ideal) ℓ) (h : Cert.Pre_KernelIdeal m) (c : Dev nD) :
    (∀ i, IsFin (m ((c.tc : Thread nD τ).loc main_arg1) i))
    ∧ (∀ i, IsFin (m ((c.tc : Thread nD τ).loc main_arg2) i))
    ∧ (∀ i, IsFin (m ((c.tc : Thread nD τ).loc main_arg4) i))
    ∧ (∀ i, IsFin (m ((c.tc : Thread nD τ).loc main_arg6) i)) := by
  have e := congrFun (h c) ValueIdx.ix0
  dsimp only [Cert.Pre_finite_inputs.fn, Cert.Pre_finite_inputs.fn_part1, Cert.Pre_finite_inputs.fn_part2] at e
  -- the eight answers are and-ed from the left: peel the conjunction from the outside in
  obtain ⟨e33, -⟩ := IntOp.andi_eq_one.1 e
  obtain ⟨e28, e6⟩ := IntOp.andi_eq_one.1 e33
  obtain ⟨e23, -⟩ := IntOp.andi_eq_one.1 e28
  obtain ⟨e18, e4⟩ := IntOp.andi_eq_one.1 e23
  obtain ⟨e13, -⟩ := IntOp.andi_eq_one.1 e18
  obtain ⟨e8, e2⟩ := IntOp.andi_eq_one.1 e13
  obtain ⟨-, e1⟩ := IntOp.andi_eq_one.1 e8
  exact ⟨entries_real _ _ _ _ _ e1, entries_real _ _ _ _ _ e2, entries_real _ _ _ _ _ e4, entries_real _ _ _ _ _ e6⟩

end Cert.Flow

end
-- ==== Proof.KernelRows.lean ====
/-
  The kernel body's stages on one 128-row tile, read one row at a time.
-/
import proofs.«406076_j91319594647707_3_alg».proof.Proof.Gen.KernelIdeal
import proofs.«406076_j91319594647707_3_alg».proof.Proof.Spec
import Idealize.ShloMosaic.PureOps.Ideal.Laws
import Idealize.ShloMosaic.Lib.ValueIdx
import Idealize.ShloMosaic.Lib.Pipeline.Value

noncomputable section

namespace Cert.Flow.Kern

open Idealize.ShloMosaic Idealize.ShloMosaic.ValueIdx Cert.KernelIdeal Cert.KernelIdeal.Facts₀ Cert.KernelIdeal.Facts Cert.Flow

/-! ## The three contractions at an entry

Each is a plain matrix product `[128, K] · [K, N]`: entry (p, j) is the sum over the shared axis. -/

theorem lhsA_0 (i : S128x2048.Idx) (q : dot_S128x512_S512x2048_S128x2048_1_0_0_1_n_n.contr.Idx) :
    (dot_S128x512_S512x2048_S128x2048_1_0_0_1_n_n.lhsIdx i q 0).val = (i 0).val := by
  unfold DotDims.lhsIdx
  rw [dif_neg (show ¬(0 : Fin S128x512.rank) ∈ dot_S128x512_S512x2048_S128x2048_1_0_0_1_n_n.lhsBatch by decide),
    dif_pos (show (0 : Fin S128x512.rank) ∈ dot_S128x512_S512x2048_S128x2048_1_0_0_1_n_n.lhsNonContracting by decide)]
  rfl
theorem lhsA_1 (i : S128x2048.Idx) (q : dot_S128x512_S512x2048_S128x2048_1_0_0_1_n_n.contr.Idx) :
    (dot_S128x512_S512x2048_S128x2048_1_0_0_1_n_n.lhsIdx i q 1).val = (q ⟨0, by decide⟩).val :=
  dot_S128x512_S512x2048_S128x2048_1_0_0_1_n_n.lhsIdx_val_of_single rfl i q
theorem rhsA_0 (i : S128x2048.Idx) (q : dot_S128x512_S512x2048_S128x2048_1_0_0_1_n_n.contr.Idx) :
    (dot_S128x512_S512x2048_S128x2048_1_0_0_1_n_n.rhsIdx i q 0).val = (q ⟨0, by decide⟩).val :=
  dot_S128x512_S512x2048_S128x2048_1_0_0_1_n_n.rhsIdx_val_of_single rfl i q
theorem rhsA_1 (i : S128x2048.Idx) (q : dot_S128x512_S512x2048_S128x2048_1_0_0_1_n_n.contr.Idx) :
    (dot_S128x512_S512x2048_S128x2048_1_0_0_1_n_n.rhsIdx i q 1).val = (i 1).val := by
  unfold DotDims.rhsIdx
  rw [dif_neg (show ¬(1 : Fin S512x2048.rank) ∈ dot_S128x512_S512x2048_S128x2048_1_0_0_1_n_n.rhsBatch by decide),
    dif_pos (show (1 : Fin S512x2048.rank) ∈ dot_S128x512_S512x2048_S128x2048_1_0_0_1_n_n.rhsNonContracting by decide)]
  rfl

/-- `[128,512] · [512,2048]` at (p, j). -/
theorem mmA_at (A : FVec Ideal S128x512 .bf16) (B : FVec Ideal S512x2048 .bf16) (p : Fin 128) (j : Fin 2048) :
    matmul dot_S128x512_S512x2048_S128x2048_1_0_0_1_n_n none A B (constant S128x2048 .f32 0x00000000#32) (ix2 p j)
      = ∑ k : Fin 512, A (ix2 p k) * B (ix2 k j) := by
  simp only [matmul]
  rw [Ideal.matmul_constant_zero_apply,
    ← Equiv.sum_comp (contrEquiv1 dot_S128x512_S512x2048_S128x2048_1_0_0_1_n_n 512 rfl rfl).symm]
  refine Finset.sum_congr rfl fun k _ => ?_
  have hk := contrEquiv1_symm_val dot_S128x512_S512x2048_S128x2048_1_0_0_1_n_n 512 rfl rfl k
  have el : dot_S128x512_S512x2048_S128x2048_1_0_0_1_n_n.lhsIdx (ix2 p j)
      ((contrEquiv1 dot_S128x512_S512x2048_S128x2048_1_0_0_1_n_n 512 rfl rfl).symm k) = ix2 p k :=
    funext fun a => Fin.ext (by
      match a with
      | ⟨0, _⟩ => exact lhsA_0 _ _
      | ⟨1, _⟩ => exact (lhsA_1 _ _).trans hk)
  have er : dot_S128x512_S512x2048_S128x2048_1_0_0_1_n_n.rhsIdx (ix2 p j)
      ((contrEquiv1 dot_S128x512_S512x2048_S128x2048_1_0_0_1_n_n 512 rfl rfl).symm k) = ix2 k j :=
    funext fun a => Fin.ext (by
      match a with
      | ⟨0, _⟩ => exact (rhsA_0 _ _).trans hk
      | ⟨1, _⟩ => exact rhsA_1 _ _)
  rw [el, er]

theorem lhsB_0 (i : S128x2048.Idx) (q : dot_S128x2048_S2048x2048_S128x2048_1_0_0_1_n_n.contr.Idx) :
    (dot_S128x2048_S2048x2048_S128x2048_1_0_0_1_n_n.lhsIdx i q 0).val = (i 0).val := by
  unfold DotDims.lhsIdx
  rw [dif_neg (show ¬(0 : Fin S128x2048.rank) ∈ dot_S128x2048_S2048x2048_S128x2048_1_0_0_1_n_n.lhsBatch by decide),
    dif_pos (show (0 : Fin S128x2048.rank) ∈ dot_S128x2048_S2048x2048_S128x2048_1_0_0_1_n_n.lhsNonContracting by decide)]
  rfl
theorem lhsB_1 (i : S128x2048.Idx) (q : dot_S128x2048_S2048x2048_S128x2048_1_0_0_1_n_n.contr.Idx) :
    (dot_S128x2048_S2048x2048_S128x2048_1_0_0_1_n_n.lhsIdx i q 1).val = (q ⟨0, by decide⟩).val :=
  dot_S128x2048_S2048x2048_S128x2048_1_0_0_1_n_n.lhsIdx_val_of_single rfl i q
theorem rhsB_0 (i : S128x2048.Idx) (q : dot_S128x2048_S2048x2048_S128x2048_1_0_0_1_n_n.contr.Idx) :
    (dot_S128x2048_S2048x2048_S128x2048_1_0_0_1_n_n.rhsIdx i q 0).val = (q ⟨0, by decide⟩).val :=
  dot_S128x2048_S2048x2048_S128x2048_1_0_0_1_n_n.rhsIdx_val_of_single rfl i q
theorem rhsB_1 (i : S128x2048.Idx) (q : dot_S128x2048_S2048x2048_S128x2048_1_0_0_1_n_n.contr.Idx) :
    (dot_S128x2048_S2048x2048_S128x2048_1_0_0_1_n_n.rhsIdx i q 1).val = (i 1).val := by
  unfold DotDims.rhsIdx
  rw [dif_neg (show ¬(1 : Fin S2048x2048.rank) ∈ dot_S128x2048_S2048x2048_S128x2048_1_0_0_1_n_n.rhsBatch by decide),
    dif_pos (show (1 : Fin S2048x2048.rank) ∈ dot_S128x2048_S2048x2048_S128x2048_1_0_0_1_n_n.rhsNonContracting by decide)]
  rfl

/-- `[128,2048] · [2048,2048]` at (p, j). -/
theorem mmB_at (A : FVec Ideal S128x2048 .bf16) (B : FVec Ideal S2048x2048 .bf16) (p : Fin 128) (j : Fin 2048) :
    matmul dot_S128x2048_S2048x2048_S128x2048_1_0_0_1_n_n none A B (constant S128x2048 .f32 0x00000000#32) (ix2 p j)
      = ∑ k : Fin 2048, A (ix2 p k) * B (ix2 k j) := by
  simp only [matmul]
  rw [Ideal.matmul_constant_zero_apply,
    ← Equiv.sum_comp (contrEquiv1 dot_S128x2048_S2048x2048_S128x2048_1_0_0_1_n_n 2048 rfl rfl).symm]
  refine Finset.sum_congr rfl fun k _ => ?_
  have hk := contrEquiv1_symm_val dot_S128x2048_S2048x2048_S128x2048_1_0_0_1_n_n 2048 rfl rfl k
  have el : dot_S128x2048_S2048x2048_S128x2048_1_0_0_1_n_n.lhsIdx (ix2 p j)
      ((contrEquiv1 dot_S128x2048_S2048x2048_S128x2048_1_0_0_1_n_n 2048 rfl rfl).symm k) = ix2 p k :=
    funext fun a => Fin.ext (by
      match a with
      | ⟨0, _⟩ => exact lhsB_0 _ _
      | ⟨1, _⟩ => exact (lhsB_1 _ _).trans hk)
  have er : dot_S128x2048_S2048x2048_S128x2048_1_0_0_1_n_n.rhsIdx (ix2 p j)
      ((contrEquiv1 dot_S128x2048_S2048x2048_S128x2048_1_0_0_1_n_n 2048 rfl rfl).symm k) = ix2 k j :=
    funext fun a => Fin.ext (by
      match a with
      | ⟨0, _⟩ => exact (rhsB_0 _ _).trans hk
      | ⟨1, _⟩ => exact rhsB_1 _ _)
  rw [el, er]

theorem lhsC_0 (i : S128x512.Idx) (q : dot_S128x2048_S2048x512_S128x512_1_0_0_1_n_n.contr.Idx) :
    (dot_S128x2048_S2048x512_S128x512_1_0_0_1_n_n.lhsIdx i q 0).val = (i 0).val := by
  unfold DotDims.lhsIdx
  rw [dif_neg (show ¬(0 : Fin S128x2048.rank) ∈ dot_S128x2048_S2048x512_S128x512_1_0_0_1_n_n.lhsBatch by decide),
    dif_pos (show (0 : Fin S128x2048.rank) ∈ dot_S128x2048_S2048x512_S128x512_1_0_0_1_n_n.lhsNonContracting by decide)]
  rfl
theorem lhsC_1 (i : S128x512.Idx) (q : dot_S128x2048_S2048x512_S128x512_1_0_0_1_n_n.contr.Idx) :
    (dot_S128x2048_S2048x512_S128x512_1_0_0_1_n_n.lhsIdx i q 1).val = (q ⟨0, by decide⟩).val :=
  dot_S128x2048_S2048x512_S128x512_1_0_0_1_n_n.lhsIdx_val_of_single rfl i q
theorem rhsC_0 (i : S128x512.Idx) (q : dot_S128x2048_S2048x512_S128x512_1_0_0_1_n_n.contr.Idx) :
    (dot_S128x2048_S2048x512_S128x512_1_0_0_1_n_n.rhsIdx i q 0).val = (q ⟨0, by decide⟩).val :=
  dot_S128x2048_S2048x512_S128x512_1_0_0_1_n_n.rhsIdx_val_of_single rfl i q
theorem rhsC_1 (i : S128x512.Idx) (q : dot_S128x2048_S2048x512_S128x512_1_0_0_1_n_n.contr.Idx) :
    (dot_S128x2048_S2048x512_S128x512_1_0_0_1_n_n.rhsIdx i q 1).val = (i 1).val := by
  unfold DotDims.rhsIdx
  rw [dif_neg (show ¬(1 : Fin S2048x512.rank) ∈ dot_S128x2048_S2048x512_S128x512_1_0_0_1_n_n.rhsBatch by decide),
    dif_pos (show (1 : Fin S2048x512.rank) ∈ dot_S128x2048_S2048x512_S128x512_1_0_0_1_n_n.rhsNonContracting by decide)]
  rfl

/-- `[128,2048] · [2048,512]` at (p, j). -/
theorem mmC_at (A : FVec Ideal S128x2048 .bf16) (B : FVec Ideal S2048x512 .bf16) (p : Fin 128) (j : Fin 512) :
    matmul dot_S128x2048_S2048x512_S128x512_1_0_0_1_n_n none A B (constant S128x512 .f32 0x00000000#32) (ix2 p j)
      = ∑ k : Fin 2048, A (ix2 p k) * B (ix2 k j) := by
  simp only [matmul]
  rw [Ideal.matmul_constant_zero_apply,
    ← Equiv.sum_comp (contrEquiv1 dot_S128x2048_S2048x512_S128x512_1_0_0_1_n_n 2048 rfl rfl).symm]
  refine Finset.sum_congr rfl fun k _ => ?_
  have hk := contrEquiv1_symm_val dot_S128x2048_S2048x512_S128x512_1_0_0_1_n_n 2048 rfl rfl k
  have el : dot_S128x2048_S2048x512_S128x512_1_0_0_1_n_n.lhsIdx (ix2 p j)
      ((contrEquiv1 dot_S128x2048_S2048x512_S128x512_1_0_0_1_n_n 2048 rfl rfl).symm k) = ix2 p k :=
    funext fun a => Fin.ext (by
      match a with
      | ⟨0, _⟩ => exact lhsC_0 _ _
      | ⟨1, _⟩ => exact (lhsC_1 _ _).trans hk)
  have er : dot_S128x2048_S2048x512_S128x512_1_0_0_1_n_n.rhsIdx (ix2 p j)
      ((contrEquiv1 dot_S128x2048_S2048x512_S128x512_1_0_0_1_n_n 2048 rfl rfl).symm k) = ix2 k j :=
    funext fun a => Fin.ext (by
      match a with
      | ⟨0, _⟩ => exact (rhsC_0 _ _).trans hk
      | ⟨1, _⟩ => exact rhsC_1 _ _)
  rw [el, er]

/-! ## The stages of one tile, named

`X` is a 128-row tile of the input, `V` the same rows of the probe; the weights arrive already cast and, for the
pull-backs, already transposed. -/

section Ops
variable (w1 : FVec Ideal S512x2048 .bf16) (b1 : FVec Ideal S1x2048 .f32) (w2 : FVec Ideal S2048x2048 .bf16)
  (b2 : FVec Ideal S1x2048 .f32) (w3 : FVec Ideal S2048x512 .bf16) (b3 : FVec Ideal S1x512 .f32)
  (w1t : FVec Ideal S2048x512 .bf16) (w2t : FVec Ideal S2048x2048 .bf16) (w3t : FVec Ideal S512x2048 .bf16)

/-- First hidden layer of a tile: `tanh (X · w1 + b1)`. -/
def act1 (X : FVec Ideal S128x512 .f32) : FVec Ideal S128x2048 .f32 :=
  tanh (addf (matmul dot_S128x512_S512x2048_S128x2048_1_0_0_1_n_n none (truncf .bf16 X bitsLt_bf16_f32) w1
      (constant S128x2048 .f32 0x00000000#32)) (broadcastTo S128x2048 b1 broadcasts_S1x2048_S128x2048))
/-- Second hidden layer: `tanh (act1 · w2 + b2)`. -/
def act2 (X : FVec Ideal S128x512 .f32) : FVec Ideal S128x2048 .f32 :=
  tanh (addf (matmul dot_S128x2048_S2048x2048_S128x2048_1_0_0_1_n_n none (truncf .bf16 (act1 w1 b1 X) bitsLt_bf16_f32) w2
      (constant S128x2048 .f32 0x00000000#32)) (broadcastTo S128x2048 b2 broadcasts_S1x2048_S128x2048))
/-- The residual output of a tile: `X + (act2 · w3 + b3)`. -/
def outZ (X : FVec Ideal S128x512 .f32) : FVec Ideal S128x512 .f32 :=
  addf X (addf (matmul dot_S128x2048_S2048x512_S128x512_1_0_0_1_n_n none (truncf .bf16 (act2 w1 b1 w2 b2 X) bitsLt_bf16_f32) w3
      (constant S128x512 .f32 0x00000000#32)) (broadcastTo S128x512 b3 broadcasts_S1x512_S128x512))
/-- The derivative factor of `tanh` at an activation: `1 - A·A`. -/
def dact (A : FVec Ideal S128x2048 .f32) : FVec Ideal S128x2048 .f32 :=
  subf (broadcast S128x2048 (Scalar.ofBits .f32 0x3F800000#32)) (mulf A A)
/-- One pull-back of a cotangent tile `W` through the three layers, with derivative factors `E2`, `E1`. -/
def kstep (E2 E1 : FVec Ideal S128x2048 .f32) (W : FVec Ideal S128x512 .f32) : FVec Ideal S128x512 .f32 :=
  matmul dot_S128x2048_S2048x512_S128x512_1_0_0_1_n_n none
    (truncf .bf16 (mulf (matmul dot_S128x2048_S2048x2048_S128x2048_1_0_0_1_n_n none
      (truncf .bf16 (mulf (matmul dot_S128x512_S512x2048_S128x2048_1_0_0_1_n_n none (truncf .bf16 W bitsLt_bf16_f32) w3t
        (constant S128x2048 .f32 0x00000000#32)) E2) bitsLt_bf16_f32) w2t
      (constant S128x2048 .f32 0x00000000#32)) E1) bitsLt_bf16_f32) w1t
    (constant S128x512 .f32 0x00000000#32)
/-- One term of the series: a coefficient times the row sums of `W ⊙ V`, as a column. -/
def kterm (c : BitVec 32) (W V : FVec Ideal S128x512 .f32) : FVec Ideal S128x1 .f32 :=
  mulf (broadcast S128x1 (Scalar.ofBits .f32 c))
    (shapeCast S128x1 (multiReduction .add [1] S128 (mulf W V) 0x00000000#32 reduces_S128x512_S128 (.inl rfl) rfl) shapeCasts_S128_S128x1)
/-- The eight-term series of a tile, as a column. -/
def outL (E2 E1 : FVec Ideal S128x2048 .f32) (V : FVec Ideal S128x512 .f32) : FVec Ideal S128x1 .f32 :=
  addf (addf (addf (addf (addf (addf (addf (addf (broadcast S128x1 (Scalar.ofBits .f32 0x00000000#32))
    (kterm 0x3F800000#32 ((kstep w1t w2t w3t E2 E1)^[1] V) V))
    (kterm 0xBF000000#32 ((kstep w1t w2t w3t E2 E1)^[2] V) V))
    (kterm 0x3EAAAAAB#32 ((kstep w1t w2t w3t E2 E1)^[3] V) V))
    (kterm 0xBE800000#32 ((kstep w1t w2t w3t E2 E1)^[4] V) V))
    (kterm 0x3E4CCCCD#32 ((kstep w1t w2t w3t E2 E1)^[5] V) V))
    (kterm 0xBE2AAAAB#32 ((kstep w1t w2t w3t E2 E1)^[6] V) V))
    (kterm 0x3E124925#32 ((kstep w1t w2t w3t E2 E1)^[7] V) V))
    (kterm 0xBE000000#32 ((kstep w1t w2t w3t E2 E1)^[8] V) V)

/-! ## The stages at a row -/

/-- The bias row broadcast down the tile. -/
theorem bias2048_at (b : FVec Ideal S1x2048 .f32) (p : Fin 128) (j : Fin 2048) :
    broadcastTo S128x2048 b broadcasts_S1x2048_S128x2048 (ix2 p j) = b (ix2 0 j) :=
  broadcastTo_apply b _ (ix2 p j) (ix2 0 j) (fun a => by match a with | ⟨0, _⟩ => rfl | ⟨1, _⟩ => rfl)
theorem bias512_at (b : FVec Ideal S1x512 .f32) (p : Fin 128) (j : Fin 512) :
    broadcastTo S128x512 b broadcasts_S1x512_S128x512 (ix2 p j) = b (ix2 0 j) :=
  broadcastTo_apply b _ (ix2 p j) (ix2 0 j) (fun a => by match a with | ⟨0, _⟩ => rfl | ⟨1, _⟩ => rfl)

theorem act1_at (X : FVec Ideal S128x512 .f32) (p : Fin 128) (j : Fin 2048) :
    act1 w1 b1 X (ix2 p j) = hid1 (fun k j => w1 (ix2 k j)) (fun j => b1 (ix2 0 j)) (fun d => X (ix2 p d)) j := by
  unfold act1 hid1
  show Ideal.tanh (_ + _) = _
  rw [mmA_at, bias2048_at]
  rfl

theorem act2_at (X : FVec Ideal S128x512 .f32) (p : Fin 128) (j : Fin 2048) :
    act2 w1 b1 w2 b2 X (ix2 p j)
      = hid2 (fun k j => w1 (ix2 k j)) (fun j => b1 (ix2 0 j)) (fun k j => w2 (ix2 k j)) (fun j => b2 (ix2 0 j)) (fun d => X (ix2 p d)) j := by
  unfold act2 hid2
  show Ideal.tanh (_ + _) = _
  rw [mmB_at, bias2048_at]
  refine congrArg (fun s => Ideal.tanh (s + _)) (Finset.sum_congr rfl fun k _ => ?_)
  exact congrArg (· * _) (act1_at w1 b1 X p k)

theorem outZ_at (X : FVec Ideal S128x512 .f32) (p : Fin 128) (q : Fin 512) :
    outZ w1 b1 w2 b2 w3 b3 X (ix2 p q)
      = zRow (fun k j => w1 (ix2 k j)) (fun j => b1 (ix2 0 j)) (fun k j => w2 (ix2 k j)) (fun j => b2 (ix2 0 j))
          (fun k j => w3 (ix2 k j)) (fun j => b3 (ix2 0 j)) (fun d => X (ix2 p d)) q := by
  unfold outZ zRow
  show X (ix2 p q) + (_ + _) = _
  rw [mmC_at, bias512_at]
  refine congrArg (fun s => X (ix2 p q) + (s + _)) (Finset.sum_congr rfl fun k _ => ?_)
  exact congrArg (· * _) (act2_at w1 b1 w2 b2 X p k)

end Ops

/-! ## The pull-back and the series at a row -/

/-- The pull-back of a cotangent row with arbitrary derivative factors `e1`, `e2`. -/
def stepG (W1 : Fin 512 → Fin 2048 → EReal) (W2 : Fin 2048 → Fin 2048 → EReal) (W3 : Fin 2048 → Fin 512 → EReal)
    (e1 e2 : Fin 2048 → EReal) (w : Fin 512 → EReal) : Fin 512 → EReal :=
  pull1 W1 fun h => pull2 W2 (fun j => pull3 W3 w j * e2 j) h * e1 h

/-- `stepK` is the pull-back with the factors `1 - a·a`. -/
theorem stepK_eq_stepG (W1 : Fin 512 → Fin 2048 → EReal) (W2 : Fin 2048 → Fin 2048 → EReal) (W3 : Fin 2048 → Fin 512 → EReal)
    (a1 a2 : Fin 2048 → EReal) :
    stepK W1 W2 W3 a1 a2 = stepG W1 W2 W3 (fun h => one32 - a1 h * a1 h) (fun j => one32 - a2 j * a2 j) := rfl

section Rows
variable (w1t : FVec Ideal S2048x512 .bf16) (w2t : FVec Ideal S2048x2048 .bf16) (w3t : FVec Ideal S512x2048 .bf16)

/-- Row p of one pull-back of a tile is the pull-back of row p, the weights read through their transposed copies. -/
theorem kstep_at (E2 E1 : FVec Ideal S128x2048 .f32) (W : FVec Ideal S128x512 .f32) (p : Fin 128) (q : Fin 512) :
    kstep w1t w2t w3t E2 E1 W (ix2 p q)
      = stepG (fun q h => w1t (ix2 h q)) (fun h j => w2t (ix2 j h)) (fun j d => w3t (ix2 d j))
          (fun h => E1 (ix2 p h)) (fun j => E2 (ix2 p j)) (fun d => W (ix2 p d)) q := by
  unfold kstep stepG pull1 pull2 pull3
  rw [mmC_at]
  refine Finset.sum_congr rfl fun h _ => congrArg (· * _) ?_
  show matmul dot_S128x2048_S2048x2048_S128x2048_1_0_0_1_n_n none _ w2t (constant S128x2048 .f32 0x00000000#32) (ix2 p h) * E1 (ix2 p h) = _
  rw [mmB_at]
  refine congrArg (· * _) (Finset.sum_congr rfl fun j _ => congrArg (· * _) ?_)
  show matmul dot_S128x512_S512x2048_S128x2048_1_0_0_1_n_n none _ w3t (constant S128x2048 .f32 0x00000000#32) (ix2 p j) * E2 (ix2 p j) = _
  rw [mmA_at]
  rfl

/-- The same for any number of pull-backs. -/
theorem kstep_iter_at (E2 E1 : FVec Ideal S128x2048 .f32) (p : Fin 128) (k : ℕ) :
    ∀ W : FVec Ideal S128x512 .f32,
      (fun d => ((kstep w1t w2t w3t E2 E1)^[k] W) (ix2 p d))
        = (stepG (fun q h => w1t (ix2 h q)) (fun h j => w2t (ix2 j h)) (fun j d => w3t (ix2 d j))
            (fun h => E1 (ix2 p h)) (fun j => E2 (ix2 p j)))^[k] (fun d => W (ix2 p d)) := by
  induction k with
  | zero => intro W; rfl
  | succ k ih =>
    intro W
    rw [Function.iterate_succ_apply, Function.iterate_succ_apply, ih (kstep w1t w2t w3t E2 E1 W)]
    exact congrArg _ (funext fun q => kstep_at w1t w2t w3t E2 E1 W p q)

/-- A row sum of a tile. -/
theorem rowsum_at (src : FVec Ideal S128x512 .f32) (p : Fin 128) :
    multiReduction .add [1] S128 src 0x00000000#32 reduces_S128x512_S128 (.inl rfl) rfl (ix1 p) = ∑ d : Fin 512, src (ix2 p d) := by
  refine (Ideal.multiReduction_add_single src 0x00000000#32 reduces_S128x512_S128 (.inl rfl) rfl (ix1 p)).trans ?_
  refine Finset.sum_congr rfl fun d _ => congrArg src (funext fun a => Fin.ext ?_)
  match a with
  | ⟨0, _⟩ => rfl
  | ⟨1, _⟩ => rfl

/-- One term of the series at row p: the coefficient times the pairing of the two rows. -/
theorem kterm_at (c : BitVec 32) (W V : FVec Ideal S128x512 .f32) (p : Fin 128) :
    kterm c W V (ix2 p 0) = Ideal.ofBits .f32 c * dotv (fun d => W (ix2 p d)) (fun d => V (ix2 p d)) := by
  unfold kterm dotv
  show Ideal.ofBits .f32 c * shapeCast S128x1 _ shapeCasts_S128_S128x1 (ix2 p 0) = _
  rw [shapeCast_apply _ shapeCasts_S128_S128x1 (ix2 p 0) (ix1 p) (by
    show (S128.rowMajor (ix1 p)).val = (S128x1.rowMajor (ix2 p 0)).val
    rw [Shape.rowMajor_val_one, Shape.rowMajor_val_two]
    show p.val = p.val * 1 + 0
    omega), rowsum_at]
  rfl

/-- The series of a tile at row p. -/
theorem outL_at (E2 E1 : FVec Ideal S128x2048 .f32) (V : FVec Ideal S128x512 .f32) (p : Fin 128) :
    outL w1t w2t w3t E2 E1 V (ix2 p 0)
      = series fun k => dotv ((stepG (fun q h => w1t (ix2 h q)) (fun h j => w2t (ix2 j h)) (fun j d => w3t (ix2 d j))
          (fun h => E1 (ix2 p h)) (fun j => E2 (ix2 p j)))^[k] (fun d => V (ix2 p d))) (fun d => V (ix2 p d)) := by
  unfold outL series
  simp only [addf_apply, kterm_at, kstep_iter_at]
  rfl

end Rows

/-! ## A tile's two results at a row, in the specification's words -/

section Tile
variable (w1 : FVec Ideal S512x2048 .bf16) (b1 : FVec Ideal S1x2048 .f32) (w2 : FVec Ideal S2048x2048 .bf16)
  (b2 : FVec Ideal S1x2048 .f32)
  (w1t : FVec Ideal S2048x512 .bf16) (w2t : FVec Ideal S2048x2048 .bf16) (w3t : FVec Ideal S512x2048 .bf16)

theorem dact_at (A : FVec Ideal S128x2048 .f32) (p : Fin 128) (j : Fin 2048) :
    dact A (ix2 p j) = one32 - A (ix2 p j) * A (ix2 p j) := rfl

/-- The series of a tile whose derivative factors come from its own two hidden layers. -/
theorem outL_tile_at (X V : FVec Ideal S128x512 .f32) (p : Fin 128) :
    outL w1t w2t w3t (dact (act2 w1 b1 w2 b2 X)) (dact (act1 w1 b1 X)) V (ix2 p 0)
      = LrowK (fun q h => w1t (ix2 h q)) (fun h j => w2t (ix2 j h)) (fun j d => w3t (ix2 d j))
          (hid1 (fun k j => w1 (ix2 k j)) (fun j => b1 (ix2 0 j)) (fun d => X (ix2 p d)))
          (hid2 (fun k j => w1 (ix2 k j)) (fun j => b1 (ix2 0 j)) (fun k j => w2 (ix2 k j)) (fun j => b2 (ix2 0 j)) (fun d => X (ix2 p d)))
          (fun d => V (ix2 p d)) := by
  rw [outL_at]
  unfold LrowK
  rw [stepK_eq_stepG]
  have e1 : (fun h => dact (act1 w1 b1 X) (ix2 p h))
      = fun h => one32 - hid1 (fun k j => w1 (ix2 k j)) (fun j => b1 (ix2 0 j)) (fun d => X (ix2 p d)) h
          * hid1 (fun k j => w1 (ix2 k j)) (fun j => b1 (ix2 0 j)) (fun d => X (ix2 p d)) h :=
    funext fun h => by rw [dact_at, act1_at]
  have e2 : (fun j => dact (act2 w1 b1 w2 b2 X) (ix2 p j))
      = fun j => one32 - hid2 (fun k j => w1 (ix2 k j)) (fun j => b1 (ix2 0 j)) (fun k j => w2 (ix2 k j)) (fun j => b2 (ix2 0 j)) (fun d => X (ix2 p d)) j
          * hid2 (fun k j => w1 (ix2 k j)) (fun j => b1 (ix2 0 j)) (fun k j => w2 (ix2 k j)) (fun j => b2 (ix2 0 j)) (fun d => X (ix2 p d)) j :=
    funext fun j => by rw [dact_at, act2_at]
  rw [e1, e2]

end Tile

end Cert.Flow.Kern

end
-- ==== Proof.KernelPay.lean ====
/-
  What one grid point leaves in the two output blocks, entry by entry.

  The body handles its 256-row block as two independent 128-row tiles. Each tile's stores are the tile functions of
  KernelRows applied to the tile's rows of the two input blocks (the chains of payloads unfold to exactly those
  compositions), so entry (p, ·) of an output block depends on row p of the input blocks only, whichever tile p
  falls in: each output block is ONE function of the block index, and its two stored pieces are that function's
  restrictions to rows 0…127 and 128…255.
-/
import proofs.«406076_j91319594647707_3_alg».proof.Proof.Gen.KernelIdeal.Frame
import proofs.«406076_j91319594647707_3_alg».proof.Proof.KernelRows

noncomputable section

namespace Cert.Flow.Kern

open Idealize.ShloMosaic Idealize.ShloMosaic.ValueIdx Cert.KernelIdeal Cert.KernelIdeal.Facts₀ Cert.KernelIdeal.Facts Cert.Flow

/-! ## The body's payloads are the tile functions -/

open Cert.KernelIdeal.Gen

section Pay
variable (v0 : Vec Ideal S512x2048 .bf16) (v2 : Vec Ideal S1x2048 .f32) (v4 : Vec Ideal S2048x2048 .bf16) (v6 : Vec Ideal S1x2048 .f32)
  (c1 : FVec Ideal S512x2048 .bf16) (c3 : FVec Ideal S1x2048 .f32) (c5 : FVec Ideal S2048x2048 .bf16) (c7 : FVec Ideal S1x2048 .f32)
  (c9 : FVec Ideal S2048x512 .bf16) (c11 : FVec Ideal S1x512 .f32)
  (c13 : FVec Ideal S2048x512 .bf16) (c15 : FVec Ideal S2048x2048 .bf16) (c17 : FVec Ideal S512x2048 .bf16)
  (X V : Vec Ideal S128x512 .f32)

/-- First tile, first output. -/
theorem payZ0 : k0_pay15 c9 c11 X (k0_pay13 v0 v2 v4 v6 X) = outZ (k0_pay1 v0) (k0_pay2 v2) (k0_pay3 v4) (k0_pay4 v6) c9 c11 X := rfl
/-- Second tile, first output. -/
theorem payZ1 : k0_pay31 c3 c5 c7 c9 c11 X (k0_pay26 c1 X) = outZ c1 c3 c5 c7 c9 c11 X := rfl

end Pay

section PayL
variable (v0 : Vec Ideal S512x2048 .bf16) (v2 : Vec Ideal S1x2048 .f32) (v4 : Vec Ideal S2048x2048 .bf16) (v6 : Vec Ideal S1x2048 .f32)
  (c1 : FVec Ideal S512x2048 .bf16) (c3 : FVec Ideal S1x2048 .f32) (c5 : FVec Ideal S2048x2048 .bf16) (c7 : FVec Ideal S1x2048 .f32)
  (c13 : FVec Ideal S2048x512 .bf16) (c15 : FVec Ideal S2048x2048 .bf16) (c17 : FVec Ideal S512x2048 .bf16)
  (X V : Vec Ideal S128x512 .f32)

/-- First tile, second output: the chain of payloads is the series of the tile. -/
theorem payL0 :
    k0_pay25 c13 c15 c17 V (k0_pay11 v0 v2 X) (k0_pay14 (k0_pay12 v0 v2 v4 v6 X))
      (k0_pay22 c13 c15 c17 V (k0_pay11 v0 v2 X) (k0_pay14 (k0_pay12 v0 v2 v4 v6 X))
        (k0_pay18 c13 c15 c17 V (k0_pay11 v0 v2 X) (k0_pay12 v0 v2 v4 v6 X))
        (k0_pay19 c13 c15 c17 V (k0_pay11 v0 v2 X) (k0_pay12 v0 v2 v4 v6 X)))
      (k0_pay23 c13 c15 c17 (k0_pay11 v0 v2 X) (k0_pay14 (k0_pay12 v0 v2 v4 v6 X))
        (k0_pay19 c13 c15 c17 V (k0_pay11 v0 v2 X) (k0_pay12 v0 v2 v4 v6 X)))
      (k0_pay24 c13 c15 c17 V (k0_pay11 v0 v2 X) (k0_pay14 (k0_pay12 v0 v2 v4 v6 X))
        (k0_pay19 c13 c15 c17 V (k0_pay11 v0 v2 X) (k0_pay12 v0 v2 v4 v6 X)))
      = outL c13 c15 c17 (dact (act2 (k0_pay1 v0) (k0_pay2 v2) (k0_pay3 v4) (k0_pay4 v6) X))
          (dact (act1 (k0_pay1 v0) (k0_pay2 v2) X)) V := rfl

/-- Second tile, second output. -/
theorem payL1 :
    k0_pay40 c13 c15 c17 V (k0_pay28 c3 (k0_pay26 c1 X)) (k0_pay30 c3 c5 c7 (k0_pay26 c1 X))
      (k0_pay38 c13 c15 c17 (k0_pay28 c3 (k0_pay26 c1 X)) (k0_pay30 c3 c5 c7 (k0_pay26 c1 X))
        (k0_pay34 c3 c5 c7 c13 c15 c17 V (k0_pay26 c1 X)))
      (k0_pay39 c13 c15 c17 V (k0_pay28 c3 (k0_pay26 c1 X)) (k0_pay30 c3 c5 c7 (k0_pay26 c1 X))
        (k0_pay33 c3 c5 c7 c13 c15 c17 V (k0_pay26 c1 X))
        (k0_pay34 c3 c5 c7 c13 c15 c17 V (k0_pay26 c1 X))
        (k0_pay35 c3 c5 c7 c13 c15 c17 V (k0_pay26 c1 X))
        (Scalar.ofBits .f32 0xBF000000#32))
      = outL c13 c15 c17 (dact (act2 c1 c3 c5 c7 X)) (dact (act1 c1 c3 X)) V := rfl

end PayL

/-! ## The two output blocks, entry by entry -/

section Blocks
variable (x0 x1 : Vec Ideal S256x512 .f32) (x2 : Vec Ideal S512x2048 .bf16) (x3 : Vec Ideal S1x2048 .f32)
  (x4 : Vec Ideal S2048x2048 .bf16) (x5 : Vec Ideal S1x2048 .f32) (x6 : Vec Ideal S2048x512 .bf16) (x7 : Vec Ideal S1x512 .f32)
  (x8 : Vec Ideal S2048x512 .bf16) (x9 : Vec Ideal S2048x2048 .bf16) (x10 : Vec Ideal S512x2048 .bf16)

theorem zero2 : (![0, 0] : Fin 2 → ℕ) = fun _ => 0 := by
  funext a; match a with | ⟨0, _⟩ => rfl | ⟨1, _⟩ => rfl

/-- A weight block loaded whole and re-cast to its own shape is the block. -/
theorem ldw1 : k0_pay1 (F := Ideal) (View.ld x2 r0_0) = x2 := by
  unfold k0_pay1
  exact (shapeCast_self _ _).trans (View.ld_unit_zero (S := S512x2048) zero2 _ x2)
theorem ldw2 : k0_pay2 (F := Ideal) (View.ld x3 r0_1) = x3 := by
  unfold k0_pay2
  exact (shapeCast_self _ _).trans (View.ld_unit_zero (S := S1x2048) zero2 _ x3)
theorem ldw3 : k0_pay3 (F := Ideal) (View.ld x4 r0_2) = x4 := by
  unfold k0_pay3
  exact (shapeCast_self _ _).trans (View.ld_unit_zero (S := S2048x2048) zero2 _ x4)
theorem ldw4 : k0_pay4 (F := Ideal) (View.ld x5 r0_1) = x5 := by
  unfold k0_pay4
  exact (shapeCast_self _ _).trans (View.ld_unit_zero (S := S1x2048) zero2 _ x5)
theorem ldw5 : k0_pay5 (F := Ideal) (View.ld x6 r0_3) = x6 := by
  unfold k0_pay5
  exact (shapeCast_self _ _).trans (View.ld_unit_zero (S := S2048x512) zero2 _ x6)
theorem ldw6 : k0_pay6 (F := Ideal) (View.ld x7 r0_4) = x7 := by
  unfold k0_pay6
  exact (shapeCast_self _ _).trans (View.ld_unit_zero (S := S1x512) zero2 _ x7)
theorem ldw7 : k0_pay7 (F := Ideal) (View.ld x8 r0_3) = x8 := by
  unfold k0_pay7
  exact (shapeCast_self _ _).trans (View.ld_unit_zero (S := S2048x512) zero2 _ x8)
theorem ldw8 : k0_pay8 (F := Ideal) (View.ld x9 r0_2) = x9 := by
  unfold k0_pay8
  exact (shapeCast_self _ _).trans (View.ld_unit_zero (S := S2048x2048) zero2 _ x9)
theorem ldw9 : k0_pay9 (F := Ideal) (View.ld x10 r0_0) = x10 := by
  unfold k0_pay9
  exact (shapeCast_self _ _).trans (View.ld_unit_zero (S := S512x2048) zero2 _ x10)

/-- Where the two tiles sit in the block: rows 0…127 and rows 128…255. -/
theorem emb5 (a : Fin 128) (d : Fin 512) : r0_5.emb (ix2 a d) = ix2 (⟨a.val, by omega⟩ : Fin 256) d :=
  funext fun c => Fin.ext (by
    match c with
    | ⟨0, _⟩ => show 0 + 1 * a.val = a.val; omega
    | ⟨1, _⟩ => show 0 + 1 * d.val = d.val; omega)
theorem emb7 (a : Fin 128) (d : Fin 512) : r0_7.emb (ix2 a d) = ix2 (⟨128 + a.val, by omega⟩ : Fin 256) d :=
  funext fun c => Fin.ext (by
    match c with
    | ⟨0, _⟩ => show 128 + 1 * a.val = 128 + a.val; omega
    | ⟨1, _⟩ => show 0 + 1 * d.val = d.val; omega)
theorem emb6 (a : Fin 128) : r0_6.emb (ix2 a (0 : Fin 1)) = ix2 (⟨a.val, by omega⟩ : Fin 256) (0 : Fin 1) :=
  funext fun c => Fin.ext (by
    match c with
    | ⟨0, _⟩ => show 0 + 1 * a.val = a.val; omega
    | ⟨1, _⟩ => rfl)
theorem emb8 (a : Fin 128) : r0_8.emb (ix2 a (0 : Fin 1)) = ix2 (⟨128 + a.val, by omega⟩ : Fin 256) (0 : Fin 1) :=
  funext fun c => Fin.ext (by
    match c with
    | ⟨0, _⟩ => show 128 + 1 * a.val = 128 + a.val; omega
    | ⟨1, _⟩ => rfl)

/-- The first output block as one function of the block index. -/
def Gz : S256x512.Idx → EReal := fun y =>
  zRow (fun k j => x2 (ix2 k j)) (fun j => x3 (ix2 0 j)) (fun k j => x4 (ix2 k j)) (fun j => x5 (ix2 0 j))
    (fun k j => x6 (ix2 k j)) (fun j => x7 (ix2 0 j)) (fun d => x0 (ix2 (y 0) d)) (y 1)
theorem Gz_ix2 (p : Fin 256) (q : Fin 512) :
    Gz x0 x2 x3 x4 x5 x6 x7 (ix2 p q)
      = zRow (fun k j => x2 (ix2 k j)) (fun j => x3 (ix2 0 j)) (fun k j => x4 (ix2 k j)) (fun j => x5 (ix2 0 j))
          (fun k j => x6 (ix2 k j)) (fun j => x7 (ix2 0 j)) (fun d => x0 (ix2 p d)) q := rfl

/-- The second output block as one function of the block index. -/
def Gl : S256x1.Idx → EReal := fun y =>
  LrowK (fun q h => x8 (ix2 h q)) (fun h j => x9 (ix2 j h)) (fun j d => x10 (ix2 d j))
    (hid1 (fun k j => x2 (ix2 k j)) (fun j => x3 (ix2 0 j)) (fun d => x0 (ix2 (y 0) d)))
    (hid2 (fun k j => x2 (ix2 k j)) (fun j => x3 (ix2 0 j)) (fun k j => x4 (ix2 k j)) (fun j => x5 (ix2 0 j)) (fun d => x0 (ix2 (y 0) d)))
    (fun d => x1 (ix2 (y 0) d))
theorem Gl_ix2 (p : Fin 256) :
    Gl x0 x1 x2 x3 x4 x5 x8 x9 x10 (ix2 p 0)
      = LrowK (fun q h => x8 (ix2 h q)) (fun h j => x9 (ix2 j h)) (fun j d => x10 (ix2 d j))
          (hid1 (fun k j => x2 (ix2 k j)) (fun j => x3 (ix2 0 j)) (fun d => x0 (ix2 p d)))
          (hid2 (fun k j => x2 (ix2 k j)) (fun j => x3 (ix2 0 j)) (fun k j => x4 (ix2 k j)) (fun j => x5 (ix2 0 j)) (fun d => x0 (ix2 p d)))
          (fun d => x1 (ix2 p d)) := rfl

/-- Entry (p, q) of the first output block: the residual block applied to row p of the input block. -/
theorem out0_11_at (p : Fin 256) (q : Fin 512) :
    out0_11 (F := Ideal) x0 x1 x2 x3 x4 x5 x6 x7 x8 x9 x10 (ix2 p q)
      = zRow (fun k j => x2 (ix2 k j)) (fun j => x3 (ix2 0 j)) (fun k j => x4 (ix2 k j)) (fun j => x5 (ix2 0 j))
          (fun k j => x6 (ix2 k j)) (fun j => x7 (ix2 0 j)) (fun d => x0 (ix2 p d)) q := by
  unfold out0_11
  rw [payZ0, payZ1, ldw1, ldw2, ldw3, ldw4, ldw5, ldw6]
  refine (View.canon_apply_of_pieces (Gz x0 x2 x3 x4 x5 x6 x7) _ ?_ (ix2 p q) (cover0_11 _ _ _)).trans (Gz_ix2 x0 x2 x3 x4 x5 x6 x7 p q)
  intro pc hpc x
  rcases List.mem_cons.mp hpc with rfl | hpc
  · obtain ⟨a, b, rfl⟩ : ∃ (a : Fin 128) (b : Fin 512), x = ix2 a b := ⟨x 0, x 1, eq_ix2 x⟩
    show outZ x2 x3 x4 x5 x6 x7 (View.ld x0 r0_7) (ix2 a b) = Gz x0 x2 x3 x4 x5 x6 x7 (r0_7.emb (ix2 a b))
    rw [emb7, Gz_ix2, outZ_at]
    refine congrArg (fun r => zRow _ _ _ _ _ _ r b) (funext fun d => ?_)
    show x0 (r0_7.emb (ix2 a d)) = _
    rw [emb7]
  · obtain rfl := List.mem_singleton.mp hpc
    obtain ⟨a, b, rfl⟩ : ∃ (a : Fin 128) (b : Fin 512), x = ix2 a b := ⟨x 0, x 1, eq_ix2 x⟩
    show outZ x2 x3 x4 x5 x6 x7 (View.ld x0 r0_5) (ix2 a b) = Gz x0 x2 x3 x4 x5 x6 x7 (r0_5.emb (ix2 a b))
    rw [emb5, Gz_ix2, outZ_at]
    refine congrArg (fun r => zRow _ _ _ _ _ _ r b) (funext fun d => ?_)
    show x0 (r0_5.emb (ix2 a d)) = _
    rw [emb5]

/-- Entry (p, 0) of the second output block: the series of row p, the pull-backs through the transposed copies. -/
theorem out0_12_at (p : Fin 256) :
    out0_12 (F := Ideal) x0 x1 x2 x3 x4 x5 x6 x7 x8 x9 x10 (ix2 p 0)
      = LrowK (fun q h => x8 (ix2 h q)) (fun h j => x9 (ix2 j h)) (fun j d => x10 (ix2 d j))
          (hid1 (fun k j => x2 (ix2 k j)) (fun j => x3 (ix2 0 j)) (fun d => x0 (ix2 p d)))
          (hid2 (fun k j => x2 (ix2 k j)) (fun j => x3 (ix2 0 j)) (fun k j => x4 (ix2 k j)) (fun j => x5 (ix2 0 j)) (fun d => x0 (ix2 p d)))
          (fun d => x1 (ix2 p d)) := by
  unfold out0_12
  rw [payL0, payL1, ldw1, ldw2, ldw3, ldw4, ldw7, ldw8, ldw9]
  refine (View.canon_apply_of_pieces (Gl x0 x1 x2 x3 x4 x5 x8 x9 x10) _ ?_ (ix2 p 0) (cover0_12 _ _ _)).trans (Gl_ix2 x0 x1 x2 x3 x4 x5 x8 x9 x10 p)
  intro pc hpc x
  rcases List.mem_cons.mp hpc with rfl | hpc
  · obtain ⟨a, rfl⟩ : ∃ a : Fin 128, x = ix2 a (0 : Fin 1) :=
      ⟨x 0, (eq_ix2 x).trans (congrArg (ix2 (x 0)) (Fin.ext (by
        have h : (x 1).val < 1 := (x 1).isLt
        show (x 1).val = 0
        omega)))⟩
    show outL x8 x9 x10 (dact (act2 x2 x3 x4 x5 (View.ld x0 r0_7))) (dact (act1 x2 x3 (View.ld x0 r0_7))) (View.ld x1 r0_7) (ix2 a 0)
      = Gl x0 x1 x2 x3 x4 x5 x8 x9 x10 (r0_8.emb (ix2 a 0))
    rw [emb8, Gl_ix2, outL_tile_at]
    have ex : (fun d => View.ld x0 r0_7 (ix2 a d)) = fun d => x0 (ix2 (⟨128 + a.val, by omega⟩ : Fin 256) d) :=
      funext fun d => by show x0 (r0_7.emb (ix2 a d)) = _; rw [emb7]
    have ev : (fun d => View.ld x1 r0_7 (ix2 a d)) = fun d => x1 (ix2 (⟨128 + a.val, by omega⟩ : Fin 256) d) :=
      funext fun d => by show x1 (r0_7.emb (ix2 a d)) = _; rw [emb7]
    rw [ex, ev]
  · obtain rfl := List.mem_singleton.mp hpc
    obtain ⟨a, rfl⟩ : ∃ a : Fin 128, x = ix2 a (0 : Fin 1) :=
      ⟨x 0, (eq_ix2 x).trans (congrArg (ix2 (x 0)) (Fin.ext (by
        have h : (x 1).val < 1 := (x 1).isLt
        show (x 1).val = 0
        omega)))⟩
    show outL x8 x9 x10 (dact (act2 x2 x3 x4 x5 (View.ld x0 r0_5))) (dact (act1 x2 x3 (View.ld x0 r0_5))) (View.ld x1 r0_5) (ix2 a 0)
      = Gl x0 x1 x2 x3 x4 x5 x8 x9 x10 (r0_6.emb (ix2 a 0))
    rw [emb6, Gl_ix2, outL_tile_at]
    have ex : (fun d => View.ld x0 r0_5 (ix2 a d)) = fun d => x0 (ix2 (⟨a.val, by omega⟩ : Fin 256) d) :=
      funext fun d => by show x0 (r0_5.emb (ix2 a d)) = _; rw [emb5]
    have ev : (fun d => View.ld x1 r0_5 (ix2 a d)) = fun d => x1 (ix2 (⟨a.val, by omega⟩ : Fin 256) d) :=
      funext fun d => by show x1 (r0_5.emb (ix2 a d)) = _; rw [emb5]
    rw [ex, ev]

end Blocks

end Cert.Flow.Kern

end
-- ==== Proof.KernelValue.lean ====
/-
  The kernel program's run: its two results as functions of the argument arrays.

  The program first prepares its operands: the three weight matrices cast to the narrow format (on extended reals
  a cast is the identity), each of them transposed and cast, and the three bias vectors reshaped to one-row
  matrices.  Then 32 grid points run one after another; point `t` reads rows `256 t … 256 t + 255` of the input and
  of the probe array together with every prepared operand whole, and writes the same rows of the two results: the
  residual block of each row, and, into a one-column array, the truncated series of each row.  Last, the column is
  reshaped to a vector.

  So each entry of the first result is `zRow` of the weights, the biases and its row of the input, and each entry of
  the second is `LrowK` of the weights, the two hidden layers of its row of the input and its row of the probe
  array — the transposed copies read with their coordinates swapped are the weights themselves.  The 32 blocks of 256
  rows cover the 8192 rows, row `r` lying in block `r / 256`.
-/
import proofs.«406076_j91319594647707_3_alg».proof.Proof.KernelPay
import Idealize.ShloMosaic.Lib.Pipeline.Value

noncomputable section

namespace Cert.Flow.Kern

open Idealize.ShloMosaic Idealize.ShloMosaic.TcCoe Idealize.ShloMosaic.ValueIdx Idealize.SL.Sem Cert.KernelIdeal Cert.KernelIdeal.Gen Cert.Flow

section Blocks

variable (m : (ℓ : Loc nD τ sig) → Buf (Elt Ideal) ℓ)

/-! ## The arrays the region finds: the host prefix read at an index

Before the region the program casts the three weight matrices to the narrow format (at extended reals the cast is
the identity), transposes each and casts the transpose, and reshapes the three bias vectors to one-row matrices. -/

/-- The cast copy of the first weight matrix holds the matrix's entries. -/
theorem V_v0 (c : Dev nD) (k : Fin 512) (j : Fin 2048) :
    (V m c main_v0 : S512x2048.Idx → EReal) (ix2 k j) = (m ((c.tc : Thread nD τ).loc main_arg2) : S512x2048.Idx → EReal) (ix2 k j) := by
  have e : @Eq (S512x2048.Idx → EReal) (V m c main_v0) (truncf (F := Ideal) .bf16 (m ((c.tc : Thread nD τ).loc main_arg2) : FVec Ideal S512x2048 .f32) bitsLt_bf16_f32) := by
    show StableHlo.after hostOps0 (fun b => m (c, b)) (Proc.devRef .tc main_v0) = _
    after_results
  rw [e]; rfl

/-- The cast copy of the second weight matrix. -/
theorem V_v1 (c : Dev nD) (k : Fin 2048) (j : Fin 2048) :
    (V m c main_v1 : S2048x2048.Idx → EReal) (ix2 k j) = (m ((c.tc : Thread nD τ).loc main_arg4) : S2048x2048.Idx → EReal) (ix2 k j) := by
  have e : @Eq (S2048x2048.Idx → EReal) (V m c main_v1) (truncf (F := Ideal) .bf16 (m ((c.tc : Thread nD τ).loc main_arg4) : FVec Ideal S2048x2048 .f32) bitsLt_bf16_f32) := by
    show StableHlo.after hostOps0 (fun b => m (c, b)) (Proc.devRef .tc main_v1) = _
    after_results
  rw [e]; rfl

/-- The cast copy of the third weight matrix. -/
theorem V_v2 (c : Dev nD) (k : Fin 2048) (j : Fin 512) :
    (V m c main_v2 : S2048x512.Idx → EReal) (ix2 k j) = (m ((c.tc : Thread nD τ).loc main_arg6) : S2048x512.Idx → EReal) (ix2 k j) := by
  have e : @Eq (S2048x512.Idx → EReal) (V m c main_v2) (truncf (F := Ideal) .bf16 (m ((c.tc : Thread nD τ).loc main_arg6) : FVec Ideal S2048x512 .f32) bitsLt_bf16_f32) := by
    show StableHlo.after hostOps0 (fun b => m (c, b)) (Proc.devRef .tc main_v2) = _
    after_results
  rw [e]; rfl

/-- The transposed copy of the first weight matrix: entry (h, q) is the matrix's entry (q, h). -/
theorem V_v4 (c : Dev nD) (h : Fin 2048) (q : Fin 512) :
    (V m c main_v4 : S2048x512.Idx → EReal) (ix2 h q) = (m ((c.tc : Thread nD τ).loc main_arg2) : S512x2048.Idx → EReal) (ix2 q h) := by
  have e : @Eq (S2048x512.Idx → EReal) (V m c main_v4) (truncf (F := Ideal) .bf16 (transpose S2048x512 [1, 0] (m ((c.tc : Thread nD τ).loc main_arg2) : FVec Ideal S512x2048 .f32) transposes_S512x2048_S2048x512_1_0 : FVec Ideal S2048x512 .f32) bitsLt_bf16_f32) := by
    show StableHlo.after hostOps0 (fun b => m (c, b)) (Proc.devRef .tc main_v4) = _
    after_results
  rw [e, truncf_apply]
  refine transpose_apply (s := S512x2048) (t := S2048x512) _ _ _ _ _ fun b => ?_
  match b with
  | ⟨0, _⟩ => rfl
  | ⟨1, _⟩ => rfl

/-- The transposed copy of the second weight matrix. -/
theorem V_v6 (c : Dev nD) (j : Fin 2048) (h : Fin 2048) :
    (V m c main_v6 : S2048x2048.Idx → EReal) (ix2 j h) = (m ((c.tc : Thread nD τ).loc main_arg4) : S2048x2048.Idx → EReal) (ix2 h j) := by
  have e : @Eq (S2048x2048.Idx → EReal) (V m c main_v6) (truncf (F := Ideal) .bf16 (transpose S2048x2048 [1, 0] (m ((c.tc : Thread nD τ).loc main_arg4) : FVec Ideal S2048x2048 .f32) transposes_S2048x2048_S2048x2048_1_0 : FVec Ideal S2048x2048 .f32) bitsLt_bf16_f32) := by
    show StableHlo.after hostOps0 (fun b => m (c, b)) (Proc.devRef .tc main_v6) = _
    after_results
  rw [e, truncf_apply]
  refine transpose_apply (s := S2048x2048) (t := S2048x2048) _ _ _ _ _ fun b => ?_
  match b with
  | ⟨0, _⟩ => rfl
  | ⟨1, _⟩ => rfl

/-- The transposed copy of the third weight matrix. -/
theorem V_v8 (c : Dev nD) (d : Fin 512) (j : Fin 2048) :
    (V m c main_v8 : S512x2048.Idx → EReal) (ix2 d j) = (m ((c.tc : Thread nD τ).loc main_arg6) : S2048x512.Idx → EReal) (ix2 j d) := by
  have e : @Eq (S512x2048.Idx → EReal) (V m c main_v8) (truncf (F := Ideal) .bf16 (transpose S512x2048 [1, 0] (m ((c.tc : Thread nD τ).loc main_arg6) : FVec Ideal S2048x512 .f32) transposes_S2048x512_S512x2048_1_0 : FVec Ideal S512x2048 .f32) bitsLt_bf16_f32) := by
    show StableHlo.after hostOps0 (fun b => m (c, b)) (Proc.devRef .tc main_v8) = _
    after_results
  rw [e, truncf_apply]
  refine transpose_apply (s := S2048x512) (t := S512x2048) _ _ _ _ _ fun b => ?_
  match b with
  | ⟨0, _⟩ => rfl
  | ⟨1, _⟩ => rfl

/-- The first bias as a one-row matrix: entry (0, j) is the vector's entry j. -/
theorem V_v9 (c : Dev nD) (j : Fin 2048) :
    (V m c main_v9 : S1x2048.Idx → EReal) (ix2 0 j) = (m ((c.tc : Thread nD τ).loc main_arg3) : S2048.Idx → EReal) (ix1 j) := by
  have e : @Eq (S1x2048.Idx → EReal) (V m c main_v9) (shapeCast S1x2048 (m ((c.tc : Thread nD τ).loc main_arg3) : S2048.Idx → EReal) shapeCasts_S2048_S1x2048) := by
    show StableHlo.after hostOps0 (fun b => m (c, b)) (Proc.devRef .tc main_v9) = _
    after_results
    rfl
  rw [e]
  refine shapeCast_apply (s := S2048) (t := S1x2048) _ _ _ _ ?_
  rw [Shape.rowMajor_val_one, Shape.rowMajor_val_two]
  simp

/-- The second bias as a one-row matrix. -/
theorem V_v10 (c : Dev nD) (j : Fin 2048) :
    (V m c main_v10 : S1x2048.Idx → EReal) (ix2 0 j) = (m ((c.tc : Thread nD τ).loc main_arg5) : S2048.Idx → EReal) (ix1 j) := by
  have e : @Eq (S1x2048.Idx → EReal) (V m c main_v10) (shapeCast S1x2048 (m ((c.tc : Thread nD τ).loc main_arg5) : S2048.Idx → EReal) shapeCasts_S2048_S1x2048) := by
    show StableHlo.after hostOps0 (fun b => m (c, b)) (Proc.devRef .tc main_v10) = _
    after_results
    rfl
  rw [e]
  refine shapeCast_apply (s := S2048) (t := S1x2048) _ _ _ _ ?_
  rw [Shape.rowMajor_val_one, Shape.rowMajor_val_two]
  simp

/-- The third bias as a one-row matrix. -/
theorem V_v11 (c : Dev nD) (j : Fin 512) :
    (V m c main_v11 : S1x512.Idx → EReal) (ix2 0 j) = (m ((c.tc : Thread nD τ).loc main_arg7) : S512.Idx → EReal) (ix1 j) := by
  have e : @Eq (S1x512.Idx → EReal) (V m c main_v11) (shapeCast S1x512 (m ((c.tc : Thread nD τ).loc main_arg7) : S512.Idx → EReal) shapeCasts_S512_S1x512) := by
    show StableHlo.after hostOps0 (fun b => m (c, b)) (Proc.devRef .tc main_v11) = _
    after_results
    rfl
  rw [e]
  refine shapeCast_apply (s := S512) (t := S1x512) _ _ _ _ ?_
  rw [Shape.rowMajor_val_one, Shape.rowMajor_val_two]
  simp

/-! ## The blocks a grid point sees

Grid point `t` of the 32 reads rows `256 t … 256 t + 255` of the input and of the probe array, and every weight and
bias array whole; it writes the same rows of the two results. -/

/-- The index maps, decided over the grid: the row windows sit at block (t, 0), the whole-array windows at (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-- Row p of the input block at point t is row 256 t + p of the input. -/
theorem blk_x (c : Dev nD) (t : Fin cfg0.N) (p : Fin 256) (r : Fin 8192) (hr : r.val = 256 * t.val + p.val) :
    (fun d : Fin 512 => (iblk m c 0 t : Vec Ideal S256x512 .f32) (ix2 p d)) = rowOf (m ((c.tc : Thread nD τ).loc main_arg0)) r := by
  obtain ⟨⟨e0, e1⟩, -⟩ := idx_facts t
  funext d
  show V m c main_arg0 (((cfg0.win 0).blk t).view.emb (ix2 p d)) = (m ((c.tc : Thread nD τ).loc main_arg0) : S8192x512.Idx → EReal) (ix2 r d)
  refine (congrFun (V_main_arg0 m c) _).trans (congrArg _ (funext fun a => Fin.ext ?_))
  match a with
  | ⟨0, _⟩ => show win0_0.index t (0 : Fin 2) * 256 + 1 * p.val = r.val; omega
  | ⟨1, _⟩ => show win0_0.index t (1 : Fin 2) * 512 + 1 * d.val = d.val; omega

/-- Row p of the probe block at point t is row 256 t + p of the probe array. -/
theorem blk_v (c : Dev nD) (t : Fin cfg0.N) (p : Fin 256) (r : Fin 8192) (hr : r.val = 256 * t.val + p.val) :
    (fun d : Fin 512 => (iblk m c 1 t : Vec Ideal S256x512 .f32) (ix2 p d)) = rowOf (m ((c.tc : Thread nD τ).loc main_arg1)) r := by
  obtain ⟨-, ⟨e0, e1⟩, -⟩ := idx_facts t
  funext d
  show V m c main_arg1 (((cfg0.win 1).blk t).view.emb (ix2 p d)) = (m ((c.tc : Thread nD τ).loc main_arg1) : S8192x512.Idx → EReal) (ix2 r d)
  refine (congrFun (V_main_arg1 m c) _).trans (congrArg _ (funext fun a => Fin.ext ?_))
  match a with
  | ⟨0, _⟩ => show win0_1.index t (0 : Fin 2) * 256 + 1 * p.val = r.val; omega
  | ⟨1, _⟩ => show win0_1.index t (1 : Fin 2) * 512 + 1 * d.val = d.val; omega

/-- The first weight block is the first weight matrix. -/
theorem blk_W1 (c : Dev nD) (t : Fin cfg0.N) :
    (fun (k : Fin 512) (j : Fin 2048) => (iblk m c 2 t : Vec Ideal S512x2048 .bf16) (ix2 k j)) = mat1 (m ((c.tc : Thread nD τ).loc main_arg2)) := by
  obtain ⟨-, -, ⟨e0, e1⟩, -⟩ := idx_facts t
  funext k j
  show V m c main_v0 (((cfg0.win 2).blk t).view.emb (ix2 k j)) = (m ((c.tc : Thread nD τ).loc main_arg2) : S512x2048.Idx → EReal) (ix2 k j)
  refine Eq.trans (congrArg _ (funext fun a => Fin.ext ?_)) (V_v0 m c k j)
  match a with
  | ⟨0, _⟩ => show win0_2.index t (0 : Fin 2) * 512 + 1 * k.val = k.val; omega
  | ⟨1, _⟩ => show win0_2.index t (1 : Fin 2) * 2048 + 1 * j.val = j.val; omega

/-- The first bias block is the first bias vector. -/
theorem blk_b1 (c : Dev nD) (t : Fin cfg0.N) :
    (fun j : Fin 2048 => (iblk m c 3 t : Vec Ideal S1x2048 .f32) (ix2 0 j)) = vec2048 (m ((c.tc : Thread nD τ).loc main_arg3)) := by
  obtain ⟨-, -, -, ⟨e0, e1⟩, -⟩ := idx_facts t
  funext j
  show V m c main_v9 (((cfg0.win 3).blk t).view.emb (ix2 0 j)) = (m ((c.tc : Thread nD τ).loc main_arg3) : S2048.Idx → EReal) (ix1 j)
  refine Eq.trans (congrArg _ (funext fun a => Fin.ext ?_)) (V_v9 m c j)
  match a with
  | ⟨0, _⟩ => show win0_3.index t (0 : Fin 2) * 1 + 1 * 0 = 0; omega
  | ⟨1, _⟩ => show win0_3.index t (1 : Fin 2) * 2048 + 1 * j.val = j.val; omega

/-- The second weight block is the second weight matrix. -/
theorem blk_W2 (c : Dev nD) (t : Fin cfg0.N) :
    (fun (k : Fin 2048) (j : Fin 2048) => (iblk m c 4 t : Vec Ideal S2048x2048 .bf16) (ix2 k j)) = mat2 (m ((c.tc : Thread nD τ).loc main_arg4)) := by
  obtain ⟨-, -, -, -, ⟨e0, e1⟩, -⟩ := idx_facts t
  funext k j
  show V m c main_v1 (((cfg0.win 4).blk t).view.emb (ix2 k j)) = (m ((c.tc : Thread nD τ).loc main_arg4) : S2048x2048.Idx → EReal) (ix2 k j)
  refine Eq.trans (congrArg _ (funext fun a => Fin.ext ?_)) (V_v1 m c k j)
  match a with
  | ⟨0, _⟩ => show win0_4.index t (0 : Fin 2) * 2048 + 1 * k.val = k.val; omega
  | ⟨1, _⟩ => show win0_4.index t (1 : Fin 2) * 2048 + 1 * j.val = j.val; omega

/-- The second bias block is the second bias vector. -/
theorem blk_b2 (c : Dev nD) (t : Fin cfg0.N) :
    (fun j : Fin 2048 => (iblk m c 5 t : Vec Ideal S1x2048 .f32) (ix2 0 j)) = vec2048 (m ((c.tc : Thread nD τ).loc main_arg5)) := by
  obtain ⟨-, -, -, -, -, ⟨e0, e1⟩, -⟩ := idx_facts t
  funext j
  show V m c main_v10 (((cfg0.win 5).blk t).view.emb (ix2 0 j)) = (m ((c.tc : Thread nD τ).loc main_arg5) : S2048.Idx → EReal) (ix1 j)
  refine Eq.trans (congrArg _ (funext fun a => Fin.ext ?_)) (V_v10 m c j)
  match a with
  | ⟨0, _⟩ => show win0_5.index t (0 : Fin 2) * 1 + 1 * 0 = 0; omega
  | ⟨1, _⟩ => show win0_5.index t (1 : Fin 2) * 2048 + 1 * j.val = j.val; omega

/-- The third weight block is the third weight matrix. -/
theorem blk_W3 (c : Dev nD) (t : Fin cfg0.N) :
    (fun (k : Fin 2048) (j : Fin 512) => (iblk m c 6 t : Vec Ideal S2048x512 .bf16) (ix2 k j)) = mat3 (m ((c.tc : Thread nD τ).loc main_arg6)) := by
  obtain ⟨-, -, -, -, -, -, ⟨e0, e1⟩, -⟩ := idx_facts t
  funext k j
  show V m c main_v2 (((cfg0.win 6).blk t).view.emb (ix2 k j)) = (m ((c.tc : Thread nD τ).loc main_arg6) : S2048x512.Idx → EReal) (ix2 k j)
  refine Eq.trans (congrArg _ (funext fun a => Fin.ext ?_)) (V_v2 m c k j)
  match a with
  | ⟨0, _⟩ => show win0_6.index t (0 : Fin 2) * 2048 + 1 * k.val = k.val; omega
  | ⟨1, _⟩ => show win0_6.index t (1 : Fin 2) * 512 + 1 * j.val = j.val; omega

/-- The third bias block is the third bias vector. -/
theorem blk_b3 (c : Dev nD) (t : Fin cfg0.N) :
    (fun j : Fin 512 => (iblk m c 7 t : Vec Ideal S1x512 .f32) (ix2 0 j)) = vec512 (m ((c.tc : Thread nD τ).loc main_arg7)) := by
  obtain ⟨-, -, -, -, -, -, -, ⟨e0, e1⟩, -⟩ := idx_facts t
  funext j
  show V m c main_v11 (((cfg0.win 7).blk t).view.emb (ix2 0 j)) = (m ((c.tc : Thread nD τ).loc main_arg7) : S512.Idx → EReal) (ix1 j)
  refine Eq.trans (congrArg _ (funext fun a => Fin.ext ?_)) (V_v11 m c j)
  match a with
  | ⟨0, _⟩ => show win0_7.index t (0 : Fin 2) * 1 + 1 * 0 = 0; omega
  | ⟨1, _⟩ => show win0_7.index t (1 : Fin 2) * 512 + 1 * j.val = j.val; omega

/-- The block of the transposed first weight matrix, read with its coordinates swapped, is the first weight matrix. -/
theorem blk_W1T (c : Dev nD) (t : Fin cfg0.N) :
    (fun (q : Fin 512) (h : Fin 2048) => (iblk m c 8 t : Vec Ideal S2048x512 .bf16) (ix2 h q)) = mat1 (m ((c.tc : Thread nD τ).loc main_arg2)) := by
  obtain ⟨-, -, -, -, -, -, -, -, ⟨e0, e1⟩, -⟩ := idx_facts t
  funext q h
  show V m c main_v4 (((cfg0.win 8).blk t).view.emb (ix2 h q)) = (m ((c.tc : Thread nD τ).loc main_arg2) : S512x2048.Idx → EReal) (ix2 q h)
  refine Eq.trans (congrArg _ (funext fun a => Fin.ext ?_)) (V_v4 m c h q)
  match a with
  | ⟨0, _⟩ => show win0_8.index t (0 : Fin 2) * 2048 + 1 * h.val = h.val; omega
  | ⟨1, _⟩ => show win0_8.index t (1 : Fin 2) * 512 + 1 * q.val = q.val; omega

/-- The block of the transposed second weight matrix, read with its coordinates swapped, is the second weight matrix. -/
theorem blk_W2T (c : Dev nD) (t : Fin cfg0.N) :
    (fun (h : Fin 2048) (j : Fin 2048) => (iblk m c 9 t : Vec Ideal S2048x2048 .bf16) (ix2 j h)) = mat2 (m ((c.tc : Thread nD τ).loc main_arg4)) := by
  obtain ⟨-, -, -, -, -, -, -, -, -, ⟨e0, e1⟩, -⟩ := idx_facts t
  funext h j
  show V m c main_v6 (((cfg0.win 9).blk t).view.emb (ix2 j h)) = (m ((c.tc : Thread nD τ).loc main_arg4) : S2048x2048.Idx → EReal) (ix2 h j)
  refine Eq.trans (congrArg _ (funext fun a => Fin.ext ?_)) (V_v6 m c j h)
  match a with
  | ⟨0, _⟩ => show win0_9.index t (0 : Fin 2) * 2048 + 1 * j.val = j.val; omega
  | ⟨1, _⟩ => show win0_9.index t (1 : Fin 2) * 2048 + 1 * h.val = h.val; omega

/-- The block of the transposed third weight matrix, read with its coordinates swapped, is the third weight matrix. -/
theorem blk_W3T (c : Dev nD) (t : Fin cfg0.N) :
    (fun (j : Fin 2048) (d : Fin 512) => (iblk m c 10 t : Vec Ideal S512x2048 .bf16) (ix2 d j)) = mat3 (m ((c.tc : Thread nD τ).loc main_arg6)) := by
  obtain ⟨-, -, -, -, -, -, -, -, -, -, ⟨e0, e1⟩, -⟩ := idx_facts t
  funext j d
  show V m c main_v8 (((cfg0.win 10).blk t).view.emb (ix2 d j)) = (m ((c.tc : Thread nD τ).loc main_arg6) : S2048x512.Idx → EReal) (ix2 j d)
  refine Eq.trans (congrArg _ (funext fun a => Fin.ext ?_)) (V_v8 m c d j)
  match a with
  | ⟨0, _⟩ => show win0_10.index t (0 : Fin 2) * 512 + 1 * d.val = d.val; omega
  | ⟨1, _⟩ => show win0_10.index t (1 : Fin 2) * 2048 + 1 * j.val = j.val; omega

/-! ## What a grid point writes back, and the two result arrays of the region -/

/-- The residual block of a row depends on the weights, the biases and the row only through their entries. -/
theorem zRow_congr {W1 W1' : Fin 512 → Fin 2048 → EReal} {b1 b1' : Fin 2048 → EReal} {W2 W2' : Fin 2048 → Fin 2048 → EReal}
    {b2 b2' : Fin 2048 → EReal} {W3 W3' : Fin 2048 → Fin 512 → EReal} {b3 b3' : Fin 512 → EReal} {x x' : Fin 512 → EReal} (q : Fin 512)
    (h1 : W1 = W1') (h2 : b1 = b1') (h3 : W2 = W2') (h4 : b2 = b2') (h5 : W3 = W3') (h6 : b3 = b3') (h7 : x = x') :
    zRow W1 b1 W2 b2 W3 b3 x q = zRow W1' b1' W2' b2' W3' b3' x' q := by
  subst h1 h2 h3 h4 h5 h6 h7; rfl

/-- The series of a row likewise. -/
theorem LrowK_congr {W1 W1' : Fin 512 → Fin 2048 → EReal} {W2 W2' : Fin 2048 → Fin 2048 → EReal} {W3 W3' : Fin 2048 → Fin 512 → EReal}
    {a1 a1' a2 a2' : Fin 2048 → EReal} {v v' : Fin 512 → EReal}
    (h1 : W1 = W1') (h2 : W2 = W2') (h3 : W3 = W3') (h4 : a1 = a1') (h5 : a2 = a2') (h6 : v = v') :
    LrowK W1 W2 W3 a1 a2 v = LrowK W1' W2' W3' a1' a2' v' := by
  subst h1 h2 h3 h4 h5 h6; rfl

/-- The second result of the region as a one-column array: entry (r, 0) is the series of row r. -/
def Lcol (x v : A8192x512.Idx → EReal) (W1 : A512x2048.Idx → EReal) (b1 : A2048.Idx → EReal)
    (W2 : A2048x2048.Idx → EReal) (b2 : A2048.Idx → EReal) (W3 : A2048x512.Idx → EReal) : S8192x1.Idx → EReal :=
  fun i => LKr x v W1 b1 W2 b2 W3 (i 0)

/-- Point t writes back rows 256 t … 256 t + 255 of the residual block of the input. -/
theorem flushed11_eq (c : Dev nD) (t : Fin cfg0.N) :
    (dats m 0 c).flushed 11 t = ((cfg0.win 11).blk t).view.read (Elt Ideal)
      (Zfun (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))) := by
  show (cfg0.win 11).cut (grid0.coords t) ((dats m 0 c).after 11 t) = _
  rw [after0_11]
  obtain ⟨-, -, -, -, -, -, -, -, -, -, -, ⟨e0, e1⟩, -⟩ := idx_facts t
  have hN : cfg0.N = 32 := N_0
  have ht : t.val < 32 := hN ▸ t.isLt
  funext j
  obtain ⟨p, q, rfl⟩ : ∃ (p : Fin 256) (q : Fin 512), j = ix2 p q := ⟨j 0, j 1, eq_ix2 j⟩
  have hr : 256 * t.val + p.val < 8192 := by have := p.isLt; omega
  have hemb : ((cfg0.win 11).blk t).view.emb (ix2 p q) = (ix2 (⟨256 * t.val + p.val, hr⟩ : Fin 8192) q : S8192x512.Idx) := by
    funext a; apply Fin.ext
    match a with
    | ⟨0, _⟩ => show win0_11.index t (0 : Fin 2) * 256 + 1 * p.val = 256 * t.val + p.val; omega
    | ⟨1, _⟩ => show win0_11.index t (1 : Fin 2) * 512 + 1 * q.val = q.val; omega
  show out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q)
    = Zfun (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (((cfg0.win 11).blk t).view.emb (ix2 p q))
  rw [hemb]
  refine (out0_11_at (iblk m c 0 t) (iblk m c 1 t) (iblk m c 2 t) (iblk m c 3 t) (iblk m c 4 t) (iblk m c 5 t) (iblk m c 6 t) (iblk m c 7 t) (iblk m c 8 t) (iblk m c 9 t) (iblk m c 10 t) p q).trans ?_
  exact zRow_congr q (blk_W1 m c t) (blk_b1 m c t) (blk_W2 m c t) (blk_b2 m c t) (blk_W3 m c t) (blk_b3 m c t) (blk_x m c t p ⟨256 * t.val + p.val, hr⟩ rfl)

/-- Point t writes back rows 256 t … 256 t + 255 of the column of series. -/
theorem flushed12_eq (c : Dev nD) (t : Fin cfg0.N) :
    (dats m 0 c).flushed 12 t = ((cfg0.win 12).blk t).view.read (Elt Ideal)
      (Lcol (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))) := by
  show (cfg0.win 12).cut (grid0.coords t) ((dats m 0 c).after 12 t) = _
  rw [after0_12]
  obtain ⟨-, -, -, -, -, -, -, -, -, -, -, -, ⟨e0, e1⟩⟩ := idx_facts t
  have hN : cfg0.N = 32 := N_0
  have ht : t.val < 32 := hN ▸ t.isLt
  funext j
  obtain ⟨p, z, rfl⟩ : ∃ (p : Fin 256) (z : Fin 1), j = ix2 p z := ⟨j 0, j 1, eq_ix2 j⟩
  obtain rfl : z = 0 := Subsingleton.elim _ _
  have hr : 256 * t.val + p.val < 8192 := by have := p.isLt; omega
  have hemb : (((cfg0.win 12).blk t).view.emb (ix2 p 0) : S8192x1.Idx) 0 = (⟨256 * t.val + p.val, hr⟩ : Fin 8192) := by
    apply Fin.ext
    show win0_12.index t (0 : Fin 2) * 256 + 1 * p.val = 256 * t.val + p.val; omega
  show out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p 0)
    = LKr (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
        ((((cfg0.win 12).blk t).view.emb (ix2 p 0) : S8192x1.Idx) 0)
  rw [hemb]
  refine (out0_12_at (iblk m c 0 t) (iblk m c 1 t) (iblk m c 2 t) (iblk m c 3 t) (iblk m c 4 t) (iblk m c 5 t) (iblk m c 6 t) (iblk m c 7 t) (iblk m c 8 t) (iblk m c 9 t) (iblk m c 10 t) p).trans ?_
  have hx := blk_x m c t p ⟨256 * t.val + p.val, hr⟩ rfl
  exact LrowK_congr (blk_W1T m c t) (blk_W2T m c t) (blk_W3T m c t)
    (congr (congr (congrArg hid1 (blk_W1 m c t)) (blk_b1 m c t)) hx)
    (congr (congr (congr (congr (congrArg hid2 (blk_W1 m c t)) (blk_b1 m c t)) (blk_W2 m c t)) (blk_b2 m c t)) hx)
    (blk_v m c t p ⟨256 * t.val + p.val, hr⟩ rfl)

/-- An index of the first result is in point t's block iff its row is one of the 256 rows of the block. -/
theorem mem_blk11 (t : Fin cfg0.N) (i : S8192x512.Idx) :
    i ∈ ((cfg0.win 11).blk t).view.set ↔ ∀ a : Fin 2, win0_11.index t a * S256x512.size a ≤ (i a).val ∧ (i a).val < win0_11.index t a * S256x512.size a + S256x512.size a := by
  show i ∈ ((View.whole main_v12_0).slice (win0_11.rect t)).set ↔ _
  rw [View.set_slice_whole, Rect.mem_set_unit]
  exact Iff.rfl

/-- The same for the one-column second result. -/
theorem mem_blk12 (t : Fin cfg0.N) (i : S8192x1.Idx) :
    i ∈ ((cfg0.win 12).blk t).view.set ↔ ∀ a : Fin 2, win0_12.index t a * S256x1.size a ≤ (i a).val ∧ (i a).val < win0_12.index t a * S256x1.size a + S256x1.size a := by
  show i ∈ ((View.whole main_v12_1).slice (win0_12.rect t)).set ↔ _
  rw [View.set_slice_whole, Rect.mem_set_unit]
  exact Iff.rfl

/-- Row r of the first result is written by point r / 256. -/
theorem cover11 (i : S8192x512.Idx) : ∃ t : Fin cfg0.N, (cfg0.win 11).flush t = true ∧ i ∈ ((cfg0.win 11).blk t).view.set := by
  have hN : cfg0.N = 32 := N_0
  have hi0 : (i 0).val < 8192 := (i 0).isLt
  have hi1 : (i 1).val < 512 := (i 1).isLt
  let t : Fin cfg0.N := ⟨(i 0).val / 256, by rw [hN]; omega⟩
  have htv : t.val = (i 0).val / 256 := rfl
  obtain ⟨-, -, -, -, -, -, -, -, -, -, -, ⟨e0, e1⟩, -⟩ := idx_facts t
  refine ⟨t, flush0_11 t, ?_⟩
  rw [mem_blk11]
  intro a
  match a with
  | ⟨0, _⟩ => show win0_11.index t (0 : Fin 2) * 256 ≤ (i 0).val ∧ (i 0).val < win0_11.index t (0 : Fin 2) * 256 + 256; omega
  | ⟨1, _⟩ => show win0_11.index t (1 : Fin 2) * 512 ≤ (i 1).val ∧ (i 1).val < win0_11.index t (1 : Fin 2) * 512 + 512; omega

/-- Row r of the second result is written by point r / 256. -/
theorem cover12 (i : S8192x1.Idx) : ∃ t : Fin cfg0.N, (cfg0.win 12).flush t = true ∧ i ∈ ((cfg0.win 12).blk t).view.set := by
  have hN : cfg0.N = 32 := N_0
  have hi0 : (i 0).val < 8192 := (i 0).isLt
  have hi1 : (i 1).val < 1 := (i 1).isLt
  let t : Fin cfg0.N := ⟨(i 0).val / 256, by rw [hN]; omega⟩
  have htv : t.val = (i 0).val / 256 := rfl
  obtain ⟨-, -, -, -, -, -, -, -, -, -, -, -, ⟨e0, e1⟩⟩ := idx_facts t
  refine ⟨t, flush0_12 t, ?_⟩
  rw [mem_blk12]
  intro a
  match a with
  | ⟨0, _⟩ => show win0_12.index t (0 : Fin 2) * 256 ≤ (i 0).val ∧ (i 0).val < win0_12.index t (0 : Fin 2) * 256 + 256; omega
  | ⟨1, _⟩ => show win0_12.index t (1 : Fin 2) * 1 ≤ (i 1).val ∧ (i 1).val < win0_12.index t (1 : Fin 2) * 1 + 1; omega

/-- After the 32 points the first result array is the residual block of the input, row by row. -/
theorem final11 (c : Dev nD) : (dats m 0 c).arrAt 11 cfg0.N
    = Zfun (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) :=
  (dats m 0 c).arrAt_eq_of_cover 11 _ (fun t _ => flushed11_eq m c t) cover11

/-- And the one-column second result holds the series of every row. -/
theorem final12 (c : Dev nD) : (dats m 0 c).arrAt 12 cfg0.N
    = Lcol (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) :=
  (dats m 0 c).arrAt_eq_of_cover 12 _ (fun t _ => flushed12_eq m c t) cover12

/-! ## The reshape after the region, and the run -/

/-- The program's last operation reads the one-column result as a vector: entry r is the series of row r. -/
theorem tail13 (c : Dev nD) :
    Pipeline.afterTail₀ cfgs (dats m) 0 (V0 m) [hostOps1] c main_v13
      = LfunK (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) := by
  have hA : Pipeline.withArrays (cfgs 0).spec c (V0 m c) (fun w => (dats m 0 c).arrAt w (cfgs 0).N) (Proc.devRef .tc main_v12_1)
      = Lcol (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) :=
    (Pipeline.withArrays_arr spec0 launch0.win.arr_inj c _ _ 12).trans (final12 m c)
  unfold Pipeline.afterTail₀
  show StableHlo.after hostOps1 _ (Proc.devRef .tc main_v13) = _
  after_results
  funext i
  obtain ⟨r, rfl⟩ : ∃ r : Fin 8192, i = ix1 r := ⟨i 0, eq_ix1 i⟩
  show shapeCast S8192 (Pipeline.withArrays (cfgs 0).spec c (V0 m c) (fun w => (dats m 0 c).arrAt w (cfgs 0).N) (Proc.devRef .tc main_v12_1))
      shapeCasts_S8192x1_S8192 (ix1 r) = _
  rw [hA, LfunK_ix1]
  exact shapeCast_apply (s := S8192x1) (t := S8192) _ _ (ix1 r) (ix2 r 0) (by rw [Shape.rowMajor_val_two, Shape.rowMajor_val_one]; simp)

end Blocks

/-- Every weakly fair execution of the kernel program ends with the first result at the residual block of the
    input, row by row, the second at the series in its first spelling, and the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v12_0)
        = Zfun (m ((c.tc : Thread nD τ).loc main_arg0)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v13)
        = LfunK (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).1 11).trans (final11 m c),
      ((h c).2 main_v13 (Pipeline.mem_restRefs_of main_v13 (by decide) (by decide))).trans (tail13 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.Flow.Kern

end
-- ==== Proof.RefOps.lean ====
/-
  The reference program's operations, each read at one index of its result, and its one backward step on whole
  arrays read one batch row at a time.
-/
import proofs.«406076_j91319594647707_3_alg».proof.ReferenceIdeal
import proofs.«406076_j91319594647707_3_alg».proof.Proof.Spec
import Idealize.ShloMosaic.PureOps.Ideal.Laws
import Idealize.ShloMosaic.Lib.IdealHost
import Idealize.ShloMosaic.Lib.ValueIdx
import Idealize.ShloMosaic.Lib.Pipeline.Value

noncomputable section

namespace Cert.Flow.Ref

open Idealize.ShloMosaic Idealize.ShloMosaic.ValueIdx Cert.ReferenceIdeal Cert.Flow

/-! ## Matrix products at an index

Two shapes of product occur.  `A · B` contracts the columns of `A` with the rows of `B`; `A · Bᵀ` contracts the
columns of both.  Each is read, at the result index `(r, j)`, as the sum over the one contraction coordinate: the
four coordinates of the two operand indices are computed separately, then the sum is re-indexed through the
bijection between the contraction index and its coordinate. -/

section Dots
variable {M K N : ℕ} {φ₁ φ₂ : FTy}

/-! ### `A · B` -/

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- `(A · B)[r, j] = ∑ k, A[r, k] * B[k, j]`. -/
theorem plain_apply (prec : Option ContractPrecision) (sched : HostSchedule)
    (A : FVec Ideal ⟨2, ![M, K]⟩ φ₁) (B : FVec Ideal ⟨2, ![K, N]⟩ φ₂) (r : Fin M) (j : Fin N) :
    FloatOps.dotGeneral (DotDims.plain M K N) prec sched A B (ix2 r j) = ∑ k : Fin K, A (ix2 r k) * B (ix2 k j) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs0 _ _
      | ⟨1, _⟩ => exact (plain_lhs1 _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs0 _ _).trans hk
      | ⟨1, _⟩ => exact plain_rhs1 _ _)
  rw [el, er]

/-! ### `A · Bᵀ` -/

theorem transp_lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem transp_lhs1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

theorem transp_rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

theorem transp_rhs1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- `(A · Bᵀ)[r, j] = ∑ k, A[r, k] * B[j, k]`. -/
theorem transp_apply (prec : Option ContractPrecision) (sched : HostSchedule)
    (A : FVec Ideal ⟨2, ![M, K]⟩ φ₁) (B : FVec Ideal ⟨2, ![N, K]⟩ φ₂) (r : Fin M) (j : Fin N) :
    FloatOps.dotGeneral (DotDims.transposedRhs M K N) prec sched A B (ix2 r j) = ∑ k : Fin K, A (ix2 r k) * B (ix2 j k) := by
  rw [Ideal.dotGeneral_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r j) ((contrEquiv1 (DotDims.transposedRhs M K N) K rfl rfl).symm k)
      = ix2 r k :=
    funext fun a => Fin.ext (by
      match a with
      | ⟨0, _⟩ => exact transp_lhs0 _ _
      | ⟨1, _⟩ => exact (transp_lhs1 _ _).trans hk)
  have er : (DotDims.transposedRhs M K N).rhsIdx (ix2 r j) ((contrEquiv1 (DotDims.transposedRhs M K N) K rfl rfl).symm k)
      = ix2 j k :=
    funext fun a => Fin.ext (by
      match a with
      | ⟨0, _⟩ => exact transp_rhs0 _ _
      | ⟨1, _⟩ => exact (transp_rhs1 _ _).trans hk)
  rw [el, er]

end Dots

variable [Facts]
open Facts₀ Facts

/-! ## The program's six products

Its dimension records are these two shapes of product at the program's literal extents. -/

theorem dotF1_apply (A : FVec Ideal S8192x512 .f32) (B : FVec Ideal S512x2048 .f32) (r : Fin 8192) (j : Fin 2048) :
    Host.dotGeneral (F := Ideal) dot_S8192x512_S512x2048_S8192x2048_1_0_0_1_n_n none A B (ix2 r j)
      = ∑ k : Fin 512, A (ix2 r k) * B (ix2 k j) :=
  plain_apply (M := 8192) (K := 512) (N := 2048) none .single A B r j

theorem dotF2_apply (A : FVec Ideal S8192x2048 .f32) (B : FVec Ideal S2048x2048 .f32) (r : Fin 8192) (j : Fin 2048) :
    Host.dotGeneral (F := Ideal) dot_S8192x2048_S2048x2048_S8192x2048_1_0_0_1_n_n none A B (ix2 r j)
      = ∑ k : Fin 2048, A (ix2 r k) * B (ix2 k j) :=
  plain_apply (M := 8192) (K := 2048) (N := 2048) none .single A B r j

theorem dotF3_apply (A : FVec Ideal S8192x2048 .f32) (B : FVec Ideal S2048x512 .f32) (r : Fin 8192) (j : Fin 512) :
    Host.dotGeneral (F := Ideal) dot_S8192x2048_S2048x512_S8192x512_1_0_0_1_n_n none A B (ix2 r j)
      = ∑ k : Fin 2048, A (ix2 r k) * B (ix2 k j) :=
  plain_apply (M := 8192) (K := 2048) (N := 512) none .single A B r j

theorem dotB3_apply (A : FVec Ideal S8192x512 .f32) (B : FVec Ideal S2048x512 .f32) (r : Fin 8192) (j : Fin 2048) :
    Host.dotGeneral (F := Ideal) dot_S8192x512_S2048x512_S8192x2048_1_1_0_0_n_n none A B (ix2 r j)
      = ∑ k : Fin 512, A (ix2 r k) * B (ix2 j k) :=
  transp_apply (M := 8192) (K := 512) (N := 2048) none .single A B r j

theorem dotB2_apply (A : FVec Ideal S8192x2048 .f32) (B : FVec Ideal S2048x2048 .f32) (r : Fin 8192) (j : Fin 2048) :
    Host.dotGeneral (F := Ideal) dot_S8192x2048_S2048x2048_S8192x2048_1_1_0_0_n_n none A B (ix2 r j)
      = ∑ k : Fin 2048, A (ix2 r k) * B (ix2 j k) :=
  transp_apply (M := 8192) (K := 2048) (N := 2048) none .single A B r j

theorem dotB1_apply (A : FVec Ideal S8192x2048 .f32) (B : FVec Ideal S512x2048 .f32) (r : Fin 8192) (j : Fin 512) :
    Host.dotGeneral (F := Ideal) dot_S8192x2048_S512x2048_S8192x512_1_1_0_0_n_n none A B (ix2 r j)
      = ∑ k : Fin 2048, A (ix2 r k) * B (ix2 j k) :=
  transp_apply (M := 8192) (K := 2048) (N := 512) none .single A B r j

/-! ## Biases, literals, the row sum -/

/-- A bias row broadcast over the batch reads the bias at the column. -/
theorem bias2048_apply (b : FVec Ideal S2048 .f32) (r : Fin 8192) (j : Fin 2048) :
    broadcastInDim S8192x2048 ![0, 1] bcast_S1x2048_S8192x2048_0_1 (broadcastInDim S1x2048 ![1] bcast_S2048_S1x2048_1 b) (ix2 r j)
      = b (ix1 j) := by
  rw [broadcastInDim_apply _ _ _ (ix2 r j) (ix2 (0 : Fin 1) j) (fun a => by
      match a with
      | ⟨0, _⟩ => rfl
      | ⟨1, _⟩ => rfl)]
  exact broadcastInDim_apply _ _ _ (ix2 (0 : Fin 1) j) (ix1 j) (fun a => by
      match a with
      | ⟨0, _⟩ => rfl)

theorem bias512_apply (b : FVec Ideal S512 .f32) (r : Fin 8192) (j : Fin 512) :
    broadcastInDim S8192x512 ![0, 1] bcast_S1x512_S8192x512_0_1 (broadcastInDim S1x512 ![1] bcast_S512_S1x512_1 b) (ix2 r j)
      = b (ix1 j) := by
  rw [broadcastInDim_apply _ _ _ (ix2 r j) (ix2 (0 : Fin 1) j) (fun a => by
      match a with
      | ⟨0, _⟩ => rfl
      | ⟨1, _⟩ => rfl)]
  exact broadcastInDim_apply _ _ _ (ix2 (0 : Fin 1) j) (ix1 j) (fun a => by
      match a with
      | ⟨0, _⟩ => rfl)

/-- A literal broadcast to a whole array reads the literal. -/
theorem splat2048_apply (w : BitVec 32) (i : S8192x2048.Idx) :
    broadcastInDim S8192x2048 ![] bcast_S_S8192x2048 (constant (F := Ideal) S_ .f32 w) i = Ideal.ofBits .f32 w :=
  broadcastInDim_scalar_apply _ _ _

theorem splat8192_apply (w : BitVec 32) (i : S8192.Idx) :
    broadcastInDim S8192 ![] bcast_S_S8192 (constant (F := Ideal) S_ .f32 w) i = Ideal.ofBits .f32 w :=
  broadcastInDim_scalar_apply _ _ _

/-- `1 - a` at an index. -/
theorem compl_apply (a : FVec Ideal S8192x2048 .f32) (i : S8192x2048.Idx) :
    subf (broadcastInDim S8192x2048 ![] bcast_S_S8192x2048 (constant (F := Ideal) S_ .f32 0x3F800000#32)) a i = one32 - a i :=
  congrArg (· - a i) (splat2048_apply _ i)

/-- The sum along a row, started from the literal zero. -/
theorem rowsum_apply (X : FVec Ideal S8192x512 .f32) (r : Fin 8192) :
    Host.reduceAdd X (constant (F := Ideal) S_ .f32 0x00000000#32) reducesTo_S8192x512_S8192_d1 h_S_ (ix1 r)
      = zero32 + ∑ d : Fin 512, X (ix2 r d) := by
  refine (Ideal.hostReduceAdd_single reducesTo_S8192x512_S8192_d1 (by decide) X _ (ix1 r)).trans ?_
  refine congrArg (zero32 + ·) (Finset.sum_congr rfl fun k _ => ?_)
  exact congrArg X (funext fun a => Fin.ext (by
    match a with
    | ⟨0, _⟩ => rfl
    | ⟨1, _⟩ => rfl))

/-! ## The forward layers -/

/-- The host's `tanh` at an index. -/
theorem hostTanh_apply {s : Shape} (x : FVec Ideal s .f32) (i : s.Idx) : Host.tanh x i = Ideal.tanh (x i) := rfl

/-- The first hidden layer at `(r, j)`. -/
theorem layer1_apply (X : FVec Ideal S8192x512 .f32) (W : FVec Ideal S512x2048 .f32) (b : FVec Ideal S2048 .f32)
    (r : Fin 8192) (j : Fin 2048) :
    Host.tanh (addf (Host.dotGeneral dot_S8192x512_S512x2048_S8192x2048_1_0_0_1_n_n none X W)
        (broadcastInDim S8192x2048 ![0, 1] bcast_S1x2048_S8192x2048_0_1 (broadcastInDim S1x2048 ![1] bcast_S2048_S1x2048_1 b))) (ix2 r j)
      = hid1 (mat1 W) (vec2048 b) (rowOf X r) j := by
  rw [hostTanh_apply, addf_apply, dotF1_apply, bias2048_apply]
  rfl

/-- The second hidden layer at `(r, j)`, over the first layer's array. -/
theorem layer2_apply (H : FVec Ideal S8192x2048 .f32) (W : FVec Ideal S2048x2048 .f32) (b : FVec Ideal S2048 .f32)
    (r : Fin 8192) (j : Fin 2048) :
    Host.tanh (addf (Host.dotGeneral dot_S8192x2048_S2048x2048_S8192x2048_1_0_0_1_n_n none H W)
        (broadcastInDim S8192x2048 ![0, 1] bcast_S1x2048_S8192x2048_0_1 (broadcastInDim S1x2048 ![1] bcast_S2048_S1x2048_1 b))) (ix2 r j)
      = Ideal.tanh ((∑ k : Fin 2048, H (ix2 r k) * W (ix2 k j)) + b (ix1 j)) := by
  rw [hostTanh_apply, addf_apply, dotF2_apply, bias2048_apply]

/-- The block's output at `(r, q)`, over the second layer's array. -/
theorem out_apply (X : FVec Ideal S8192x512 .f32) (H : FVec Ideal S8192x2048 .f32) (W : FVec Ideal S2048x512 .f32)
    (b : FVec Ideal S512 .f32) (r : Fin 8192) (q : Fin 512) :
    addf X (addf (Host.dotGeneral dot_S8192x2048_S2048x512_S8192x512_1_0_0_1_n_n none H W)
        (broadcastInDim S8192x512 ![0, 1] bcast_S1x512_S8192x512_0_1 (broadcastInDim S1x512 ![1] bcast_S512_S1x512_1 b))) (ix2 r q)
      = X (ix2 r q) + ((∑ k : Fin 2048, H (ix2 r k) * W (ix2 k q)) + b (ix1 q)) := by
  rw [addf_apply, addf_apply, dotF3_apply, bias512_apply]

/-! ## One backward step on whole arrays

`a1`, `a2` are the two layers' activations and `a1c`, `a2c` the arrays `1 - a1`, `1 - a2`. -/

/-- Back through the third weight, times `1 - a2`. -/
def back3 (W3 : FVec Ideal S2048x512 .f32) (a2c : FVec Ideal S8192x2048 .f32) (w : FVec Ideal S8192x512 .f32) :
    FVec Ideal S8192x2048 .f32 :=
  mulf (Host.dotGeneral dot_S8192x512_S2048x512_S8192x2048_1_1_0_0_n_n none w W3) a2c

/-- `s + s·a2`, back through the second weight, times `1 - a1`. -/
def back2 (W2 : FVec Ideal S2048x2048 .f32) (a2 a1c s : FVec Ideal S8192x2048 .f32) : FVec Ideal S8192x2048 .f32 :=
  mulf (Host.dotGeneral dot_S8192x2048_S2048x2048_S8192x2048_1_1_0_0_n_n none (addf s (mulf s a2)) W2) a1c

/-- `t + t·a1`, back through the first weight. -/
def back1 (W1 : FVec Ideal S512x2048 .f32) (a1 t : FVec Ideal S8192x2048 .f32) : FVec Ideal S8192x512 .f32 :=
  Host.dotGeneral dot_S8192x2048_S512x2048_S8192x512_1_1_0_0_n_n none (addf t (mulf t a1)) W1

/-- The whole step. -/
def refStep (W1 : FVec Ideal S512x2048 .f32) (W2 : FVec Ideal S2048x2048 .f32) (W3 : FVec Ideal S2048x512 .f32)
    (a1 a1c a2 a2c : FVec Ideal S8192x2048 .f32) (w : FVec Ideal S8192x512 .f32) : FVec Ideal S8192x512 .f32 :=
  back1 W1 a1 (back2 W2 a2 a1c (back3 W3 a2c w))

theorem back3_apply (W3 : FVec Ideal S2048x512 .f32) (a2c : FVec Ideal S8192x2048 .f32) (w : FVec Ideal S8192x512 .f32)
    (r : Fin 8192) (j : Fin 2048) :
    back3 W3 a2c w (ix2 r j) = pull3 (mat3 W3) (rowOf w r) j * a2c (ix2 r j) := by
  unfold back3
  rw [mulf_apply, dotB3_apply]
  rfl

theorem back2_apply (W2 : FVec Ideal S2048x2048 .f32) (a2 a1c s : FVec Ideal S8192x2048 .f32) (r : Fin 8192) (h : Fin 2048) :
    back2 W2 a2 a1c s (ix2 r h)
      = pull2 (mat2 W2) (fun j => s (ix2 r j) + s (ix2 r j) * a2 (ix2 r j)) h * a1c (ix2 r h) := by
  unfold back2
  rw [mulf_apply, dotB2_apply]
  rfl

theorem back1_apply (W1 : FVec Ideal S512x2048 .f32) (a1 t : FVec Ideal S8192x2048 .f32) (r : Fin 8192) (q : Fin 512) :
    back1 W1 a1 t (ix2 r q) = pull1 (mat1 W1) (fun h => t (ix2 r h) + t (ix2 r h) * a1 (ix2 r h)) q := by
  unfold back1
  rw [dotB1_apply]
  rfl

/-- Row `r` of the step's result is the row function's step of row `r` of its argument, at the activations' rows. -/
theorem refStep_apply (W1 : FVec Ideal S512x2048 .f32) (W2 : FVec Ideal S2048x2048 .f32) (W3 : FVec Ideal S2048x512 .f32)
    (a1 a1c a2 a2c : FVec Ideal S8192x2048 .f32) (w : FVec Ideal S8192x512 .f32) (r : Fin 8192)
    (h1 : ∀ j, a1c (ix2 r j) = one32 - a1 (ix2 r j)) (h2 : ∀ j, a2c (ix2 r j) = one32 - a2 (ix2 r j)) (q : Fin 512) :
    refStep W1 W2 W3 a1 a1c a2 a2c w (ix2 r q)
      = stepR (mat1 W1) (mat2 W2) (mat3 W3) (fun j => a1 (ix2 r j)) (fun j => a2 (ix2 r j)) (rowOf w r) q := by
  unfold refStep stepR
  rw [back1_apply]
  refine congrArg (fun u => pull1 (mat1 W1) u q) (funext fun h => ?_)
  have e2 : back2 W2 a2 a1c (back3 W3 a2c w) (ix2 r h)
      = pull2 (mat2 W2) (fun j => pull3 (mat3 W3) (rowOf w r) j * (one32 - a2 (ix2 r j))
          + pull3 (mat3 W3) (rowOf w r) j * (one32 - a2 (ix2 r j)) * a2 (ix2 r j)) h * (one32 - a1 (ix2 r h)) := by
    rw [back2_apply, h1]
    refine congrArg (fun u => pull2 (mat2 W2) u h * (one32 - a1 (ix2 r h))) (funext fun j => ?_)
    rw [back3_apply, h2]
  rw [e2]

/-- So if row `r` of `w` is the `k`-th iterate of the row step, row `r` of the step of `w` is the next one. -/
theorem refStep_row (W1 : FVec Ideal S512x2048 .f32) (W2 : FVec Ideal S2048x2048 .f32) (W3 : FVec Ideal S2048x512 .f32)
    (a1 a1c a2 a2c : FVec Ideal S8192x2048 .f32) (r : Fin 8192)
    (h1 : ∀ j, a1c (ix2 r j) = one32 - a1 (ix2 r j)) (h2 : ∀ j, a2c (ix2 r j) = one32 - a2 (ix2 r j))
    (w : FVec Ideal S8192x512 .f32) (k : ℕ) (u : Fin 512 → EReal)
    (hw : rowOf w r = (stepR (mat1 W1) (mat2 W2) (mat3 W3) (fun j => a1 (ix2 r j)) (fun j => a2 (ix2 r j)))^[k] u) :
    rowOf (refStep W1 W2 W3 a1 a1c a2 a2c w) r
      = (stepR (mat1 W1) (mat2 W2) (mat3 W3) (fun j => a1 (ix2 r j)) (fun j => a2 (ix2 r j)))^[k + 1] u := by
  funext q
  rw [Function.iterate_succ_apply', ← hw]
  exact refStep_apply W1 W2 W3 a1 a1c a2 a2c w r h1 h2 q

/-! ## The series -/

/-- One term of the series at row `r`: the coefficient times the pairing of row `r` of `X` with row `r` of the probe,
    the pairing summed from the literal zero. -/
theorem term_apply (c : BitVec 32) (X v : FVec Ideal S8192x512 .f32) (r : Fin 8192) :
    mulf (broadcastInDim S8192 ![] bcast_S_S8192 (constant (F := Ideal) S_ .f32 c))
        (Host.reduceAdd (mulf X v) (constant (F := Ideal) S_ .f32 0x00000000#32) reducesTo_S8192x512_S8192_d1 h_S_) (ix1 r)
      = Ideal.ofBits .f32 c * (zero32 + dotv (rowOf X r) (rowOf v r)) := by
  rw [mulf_apply, splat8192_apply, rowsum_apply]
  rfl

/-- The eight terms added up from the literal zero, at row `r`. -/
theorem series_apply (X1 X2 X3 X4 X5 X6 X7 X8 v : FVec Ideal S8192x512 .f32) (r : Fin 8192) :
    addf (addf (addf (addf (addf (addf (addf (addf
      (broadcastInDim S8192 ![] bcast_S_S8192 (constant (F := Ideal) S_ .f32 0x00000000#32))
      (mulf (broadcastInDim S8192 ![] bcast_S_S8192 (constant S_ .f32 0x3F800000#32)) (Host.reduceAdd (mulf X1 v) (constant S_ .f32 0x00000000#32) reducesTo_S8192x512_S8192_d1 h_S_)))
      (mulf (broadcastInDim S8192 ![] bcast_S_S8192 (constant S_ .f32 0xBF000000#32)) (Host.reduceAdd (mulf X2 v) (constant S_ .f32 0x00000000#32) reducesTo_S8192x512_S8192_d1 h_S_)))
      (mulf (broadcastInDim S8192 ![] bcast_S_S8192 (constant S_ .f32 0x3EAAAAAB#32)) (Host.reduceAdd (mulf X3 v) (constant S_ .f32 0x00000000#32) reducesTo_S8192x512_S8192_d1 h_S_)))
      (mulf (broadcastInDim S8192 ![] bcast_S_S8192 (constant S_ .f32 0xBE800000#32)) (Host.reduceAdd (mulf X4 v) (constant S_ .f32 0x00000000#32) reducesTo_S8192x512_S8192_d1 h_S_)))
      (mulf (broadcastInDim S8192 ![] bcast_S_S8192 (constant S_ .f32 0x3E4CCCCD#32)) (Host.reduceAdd (mulf X5 v) (constant S_ .f32 0x00000000#32) reducesTo_S8192x512_S8192_d1 h_S_)))
      (mulf (broadcastInDim S8192 ![] bcast_S_S8192 (constant S_ .f32 0xBE2AAAAB#32)) (Host.reduceAdd (mulf X6 v) (constant S_ .f32 0x00000000#32) reducesTo_S8192x512_S8192_d1 h_S_)))
      (mulf (broadcastInDim S8192 ![] bcast_S_S8192 (constant S_ .f32 0x3E124925#32)) (Host.reduceAdd (mulf X7 v) (constant S_ .f32 0x00000000#32) reducesTo_S8192x512_S8192_d1 h_S_)))
      (mulf (broadcastInDim S8192 ![] bcast_S_S8192 (constant S_ .f32 0xBE000000#32)) (Host.reduceAdd (mulf X8 v) (constant S_ .f32 0x00000000#32) reducesTo_S8192x512_S8192_d1 h_S_))
      (ix1 r)
    = (((((((zero32 + c1 * (zero32 + dotv (rowOf X1 r) (rowOf v r))) + c2 * (zero32 + dotv (rowOf X2 r) (rowOf v r)))
        + c3 * (zero32 + dotv (rowOf X3 r) (rowOf v r))) + c4 * (zero32 + dotv (rowOf X4 r) (rowOf v r)))
        + c5 * (zero32 + dotv (rowOf X5 r) (rowOf v r))) + c6 * (zero32 + dotv (rowOf X6 r) (rowOf v r)))
        + c7 * (zero32 + dotv (rowOf X7 r) (rowOf v r))) + c8 * (zero32 + dotv (rowOf X8 r) (rowOf v r)) := by
  have t1 := term_apply 0x3F800000#32 X1 v r
  have t2 := term_apply 0xBF000000#32 X2 v r
  have t3 := term_apply 0x3EAAAAAB#32 X3 v r
  have t4 := term_apply 0xBE800000#32 X4 v r
  have t5 := term_apply 0x3E4CCCCD#32 X5 v r
  have t6 := term_apply 0xBE2AAAAB#32 X6 v r
  have t7 := term_apply 0x3E124925#32 X7 v r
  have t8 := term_apply 0xBE000000#32 X8 v r
  have t0 := splat8192_apply 0x00000000#32 (ix1 r)
  rw [addf_apply, addf_apply, addf_apply, addf_apply, addf_apply, addf_apply, addf_apply, addf_apply,
    t0, t1, t2, t3, t4, t5, t6, t7, t8]
  rfl

end Cert.Flow.Ref

end
-- ==== Proof.RefValue.lean ====
/-
  The reference program's run: its two results as functions of the argument arrays.

  The run's two terms are read one batch row at a time.  The two hidden layers' arrays are the row functions
  `hid1`, `hid2` of the input's row; each of the eight backward passes is one and the same step on whole arrays,
  applied to the previous pass's result, and row `r` of that step is the row step `stepR` of row `r` of its argument;
  so the `k`-th pass's row is the `k`-th iterate of `stepR` on the probe's row, and the eight row sums are the
  series' eight pairings.
-/
import proofs.«406076_j91319594647707_3_alg».proof.Proof.Gen.ReferenceIdeal.Run
import proofs.«406076_j91319594647707_3_alg».proof.Proof.Spec
import proofs.«406076_j91319594647707_3_alg».proof.Proof.RefOps

noncomputable section

namespace Cert.Flow.Ref

open Idealize.ShloMosaic Idealize.ShloMosaic.TcCoe Idealize.SL.Sem Cert.ReferenceIdeal Cert.Flow
open Idealize.ShloMosaic.ValueIdx Idealize.ShloMosaic.StableHlo Cert.ReferenceIdeal.Value Cert.ReferenceIdeal.Gen

/-! ## The eight arguments of a valuation, at their literal array types -/

abbrev aX (V : Valuation τ sig (Elt Ideal)) : FVec Ideal S8192x512 .f32 := V (Proc.devRef .tc main_arg0)
abbrev aV (V : Valuation τ sig (Elt Ideal)) : FVec Ideal S8192x512 .f32 := V (Proc.devRef .tc main_arg1)
abbrev aW1 (V : Valuation τ sig (Elt Ideal)) : FVec Ideal S512x2048 .f32 := V (Proc.devRef .tc main_arg2)
abbrev ab1 (V : Valuation τ sig (Elt Ideal)) : FVec Ideal S2048 .f32 := V (Proc.devRef .tc main_arg3)
abbrev aW2 (V : Valuation τ sig (Elt Ideal)) : FVec Ideal S2048x2048 .f32 := V (Proc.devRef .tc main_arg4)
abbrev ab2 (V : Valuation τ sig (Elt Ideal)) : FVec Ideal S2048 .f32 := V (Proc.devRef .tc main_arg5)
abbrev aW3 (V : Valuation τ sig (Elt Ideal)) : FVec Ideal S2048x512 .f32 := V (Proc.devRef .tc main_arg6)
abbrev ab3 (V : Valuation τ sig (Elt Ideal)) : FVec Ideal S512 .f32 := V (Proc.devRef .tc main_arg7)

section Stages
variable (V : Valuation τ sig (Elt Ideal))

/-! ## The forward stages at an index -/

theorem v4_apply (r : Fin 8192) (j : Fin 2048) :
    res_main_v4 V (ix2 r j) = hid1 (mat1 (aW1 V)) (vec2048 (ab1 V)) (rowOf (aX V) r) j := by
  unfold res_main_v4
  exact layer1_apply _ _ _ r j

theorem v6_apply (i : S8192x2048.Idx) : res_main_v6 V i = one32 - res_main_v4 V i := by
  unfold res_main_v6
  exact compl_apply _ i

theorem v11_apply (r : Fin 8192) (j : Fin 2048) :
    res_main_v11 V (ix2 r j)
      = hid2 (mat1 (aW1 V)) (vec2048 (ab1 V)) (mat2 (aW2 V)) (vec2048 (ab2 V)) (rowOf (aX V) r) j := by
  unfold res_main_v11
  rw [layer2_apply]
  unfold hid2
  refine congrArg Ideal.tanh (congrArg (· + _) (Finset.sum_congr rfl fun k _ => ?_))
  rw [v4_apply]
  rfl

theorem v13_apply (i : S8192x2048.Idx) : res_main_v13 V i = one32 - res_main_v11 V i := by
  unfold res_main_v13
  exact compl_apply _ i

/-! ## The eight backward passes are one step, iterated -/

theorem v27_eq : res_main_v27 V = refStep (aW1 V) (aW2 V) (aW3 V) (res_main_v4 V) (res_main_v6 V) (res_main_v11 V) (res_main_v13 V) (aV V) := rfl
theorem v41_eq : res_main_v41 V = refStep (aW1 V) (aW2 V) (aW3 V) (res_main_v4 V) (res_main_v6 V) (res_main_v11 V) (res_main_v13 V) (res_main_v27 V) := rfl
theorem v55_eq : res_main_v55 V = refStep (aW1 V) (aW2 V) (aW3 V) (res_main_v4 V) (res_main_v6 V) (res_main_v11 V) (res_main_v13 V) (res_main_v41 V) := rfl
theorem v69_eq : res_main_v69 V = refStep (aW1 V) (aW2 V) (aW3 V) (res_main_v4 V) (res_main_v6 V) (res_main_v11 V) (res_main_v13 V) (res_main_v55 V) := rfl
theorem v83_eq : res_main_v83 V = refStep (aW1 V) (aW2 V) (aW3 V) (res_main_v4 V) (res_main_v6 V) (res_main_v11 V) (res_main_v13 V) (res_main_v69 V) := rfl
theorem v97_eq : res_main_v97 V = refStep (aW1 V) (aW2 V) (aW3 V) (res_main_v4 V) (res_main_v6 V) (res_main_v11 V) (res_main_v13 V) (res_main_v83 V) := rfl
theorem v111_eq : res_main_v111 V = refStep (aW1 V) (aW2 V) (aW3 V) (res_main_v4 V) (res_main_v6 V) (res_main_v11 V) (res_main_v13 V) (res_main_v97 V) := rfl
theorem last_eq :
    Host.dotGeneral dot_S8192x2048_S512x2048_S8192x512_1_1_0_0_n_n none
        (addf (res_main_v122 V) (mulf (res_main_v122 V) (res_main_v4 V)) : FVec Ideal S8192x2048 .f32) (aW1 V)
      = refStep (aW1 V) (aW2 V) (aW3 V) (res_main_v4 V) (res_main_v6 V) (res_main_v11 V) (res_main_v13 V) (res_main_v111 V) := rfl

/-- The row step at row `r`: `stepR` at the weights and at the two layers' rows of the input's row `r`. -/
abbrev rowStep (r : Fin 8192) : (Fin 512 → EReal) → Fin 512 → EReal :=
  stepR (mat1 (aW1 V)) (mat2 (aW2 V)) (mat3 (aW3 V)) (hid1 (mat1 (aW1 V)) (vec2048 (ab1 V)) (rowOf (aX V) r))
    (hid2 (mat1 (aW1 V)) (vec2048 (ab1 V)) (mat2 (aW2 V)) (vec2048 (ab2 V)) (rowOf (aX V) r))

theorem rowStep_eq (r : Fin 8192) :
    stepR (mat1 (aW1 V)) (mat2 (aW2 V)) (mat3 (aW3 V)) (fun j => res_main_v4 V (ix2 r j)) (fun j => res_main_v11 V (ix2 r j))
      = rowStep V r := by
  rw [show (fun j => res_main_v4 V (ix2 r j)) = hid1 (mat1 (aW1 V)) (vec2048 (ab1 V)) (rowOf (aX V) r) from
      funext fun j => v4_apply V r j,
    show (fun j => res_main_v11 V (ix2 r j))
        = hid2 (mat1 (aW1 V)) (vec2048 (ab1 V)) (mat2 (aW2 V)) (vec2048 (ab2 V)) (rowOf (aX V) r) from
      funext fun j => v11_apply V r j]

/-- If row `r` of `w` is the `k`-th iterate of the row step on the probe's row, row `r` of the step of `w` is the next. -/
theorem next_row (r : Fin 8192) (w w' : FVec Ideal S8192x512 .f32) (k : ℕ)
    (hw' : w' = refStep (aW1 V) (aW2 V) (aW3 V) (res_main_v4 V) (res_main_v6 V) (res_main_v11 V) (res_main_v13 V) w)
    (hw : rowOf w r = (rowStep V r)^[k] (rowOf (aV V) r)) :
    rowOf w' r = (rowStep V r)^[k + 1] (rowOf (aV V) r) := by
  subst hw'
  have h := refStep_row (aW1 V) (aW2 V) (aW3 V) (res_main_v4 V) (res_main_v6 V) (res_main_v11 V) (res_main_v13 V) r
    (fun j => v6_apply V _) (fun j => v13_apply V _) w k (rowOf (aV V) r) (by rw [rowStep_eq]; exact hw)
  rwa [rowStep_eq] at h

/-! ## The two results -/

/-- The first result is the block's output, row by row. -/
theorem z_eq :
    addf (aX V) (addf (Host.dotGeneral (φ₁ := .f32) dot_S8192x2048_S2048x512_S8192x512_1_0_0_1_n_n none (res_main_v11 V) (aW3 V))
        (broadcastInDim S8192x512 ![0, 1] bcast_S1x512_S8192x512_0_1 (broadcastInDim S1x512 ![1] bcast_S512_S1x512_1 (ab3 V))))
      = Zfun (aX V) (aW1 V) (ab1 V) (aW2 V) (ab2 V) (aW3 V) (ab3 V) := by
  funext i
  obtain ⟨r, q, rfl⟩ : ∃ (r : Fin 8192) (q : Fin 512), i = ix2 r q := ⟨i 0, i 1, eq_ix2 i⟩
  rw [out_apply, Zfun_ix2]
  unfold Zrc zRow
  refine congrArg (aX V (ix2 r q) + ·) (congrArg (· + ab3 V (ix1 q)) (Finset.sum_congr rfl fun k _ => ?_))
  rw [v11_apply]
  rfl

/-- The second result is the series in its second spelling, row by row. -/
theorem l_eq :
    addf (addf (addf (addf (addf (addf (addf (addf
      (broadcastInDim S8192 ![] bcast_S_S8192 (constant S_ .f32 0x00000000#32))
      (mulf (broadcastInDim S8192 ![] bcast_S_S8192 (constant S_ .f32 0x3F800000#32)) (Host.reduceAdd (mulf (res_main_v27 V) (aV V)) (constant S_ .f32 0x00000000#32) reducesTo_S8192x512_S8192_d1 h_S_)))
      (mulf (broadcastInDim S8192 ![] bcast_S_S8192 (constant S_ .f32 0xBF000000#32)) (Host.reduceAdd (mulf (res_main_v41 V) (aV V)) (constant S_ .f32 0x00000000#32) reducesTo_S8192x512_S8192_d1 h_S_)))
      (mulf (broadcastInDim S8192 ![] bcast_S_S8192 (constant S_ .f32 0x3EAAAAAB#32)) (Host.reduceAdd (mulf (res_main_v55 V) (aV V)) (constant S_ .f32 0x00000000#32) reducesTo_S8192x512_S8192_d1 h_S_)))
      (mulf (broadcastInDim S8192 ![] bcast_S_S8192 (constant S_ .f32 0xBE800000#32)) (Host.reduceAdd (mulf (res_main_v69 V) (aV V)) (constant S_ .f32 0x00000000#32) reducesTo_S8192x512_S8192_d1 h_S_)))
      (mulf (broadcastInDim S8192 ![] bcast_S_S8192 (constant S_ .f32 0x3E4CCCCD#32)) (Host.reduceAdd (mulf (res_main_v83 V) (aV V)) (constant S_ .f32 0x00000000#32) reducesTo_S8192x512_S8192_d1 h_S_)))
      (mulf (broadcastInDim S8192 ![] bcast_S_S8192 (constant S_ .f32 0xBE2AAAAB#32)) (Host.reduceAdd (mulf (res_main_v97 V) (aV V)) (constant S_ .f32 0x00000000#32) reducesTo_S8192x512_S8192_d1 h_S_)))
      (mulf (broadcastInDim S8192 ![] bcast_S_S8192 (constant S_ .f32 0x3E124925#32)) (Host.reduceAdd (mulf (res_main_v111 V) (aV V)) (constant S_ .f32 0x00000000#32) reducesTo_S8192x512_S8192_d1 h_S_)))
      (mulf (broadcastInDim S8192 ![] bcast_S_S8192 (constant S_ .f32 0xBE000000#32)) (Host.reduceAdd (mulf (Host.dotGeneral dot_S8192x2048_S512x2048_S8192x512_1_1_0_0_n_n none (addf (res_main_v122 V) (mulf (res_main_v122 V) (res_main_v4 V)) : FVec Ideal S8192x2048 .f32) (aW1 V)) (aV V)) (constant S_ .f32 0x00000000#32) reducesTo_S8192x512_S8192_d1 h_S_))
      = LfunR (aX V) (aV V) (aW1 V) (ab1 V) (aW2 V) (ab2 V) (aW3 V) := by
  funext i
  obtain ⟨r, rfl⟩ : ∃ r : Fin 8192, i = ix1 r := ⟨i 0, eq_ix1 i⟩
  have s0 : rowOf (aV V) r = (rowStep V r)^[0] (rowOf (aV V) r) := rfl
  have s1 := next_row V r _ _ 0 (v27_eq V) s0
  have s2 := next_row V r _ _ 1 (v41_eq V) s1
  have s3 := next_row V r _ _ 2 (v55_eq V) s2
  have s4 := next_row V r _ _ 3 (v69_eq V) s3
  have s5 := next_row V r _ _ 4 (v83_eq V) s4
  have s6 := next_row V r _ _ 5 (v97_eq V) s5
  have s7 := next_row V r _ _ 6 (v111_eq V) s6
  have s8 := next_row V r _ _ 7 (last_eq V) s7
  refine (series_apply _ _ _ _ _ _ _ _ _ r).trans ?_
  rw [s1, s2, s3, s4, s5, s6, s7, s8, LfunR_ix1]
  rfl

end Stages

/-- Every weakly fair execution of the reference program ends with the first result at the residual block of the
    input, row by row, the second at the series in its second spelling, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v131)
        = Zfun (m ((c.tc : Thread nD τ).loc main_arg0)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v130)
        = LfunR (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono
    (fun _ h c => ⟨(h c).1.trans (z_eq (launchContents m c)), (h c).2.1.trans (l_eq (launchContents m c)), (h c).2.2⟩)
    (Cert.ReferenceIdeal.Value.run (F := Ideal) m ρ)

end Cert.Flow.Ref

end
-- ==== Proof.lean ====
/-
  The five claims.

  Both programs take a batch of rows through the same three-layer `tanh` perceptron and add the input back
  (first result), and both estimate the log-determinant of that map row by row with eight terms of the power
  series `∑ c_k ⟨(Jᵀ)^k v, v⟩`, pulling the probe row `v` back through the three layers eight times (second result).
  The kernel program works on 256-row blocks (two 128-row tiles each) with pre-transposed weight copies and writes
  the derivative of `tanh` as `1 - a²`; the reference works on the whole arrays and writes it `q + q·a`,
  `q = g·(1 - a)`. Row by row the first results are the same expression; the second agree because the weights and
  the probe are finite under the precondition, every activation is a value of `tanh`, and so every cotangent is a
  real number, where `g(1-a) + g(1-a)a = g(1-a²)`.
  The kernel's value is read off its frame run block by block (KernelRows, KernelPay, KernelValue), the reference's
  off its run operation by operation (RefValue), both against the row-level specification (Spec), whose two
  spellings SpecLaws joins under the finiteness that Finite reads out of the precondition.
-/
import proofs.«406076_j91319594647707_3_alg».proof.Defs
import proofs.«406076_j91319594647707_3_alg».proof.Proof.Gen.Kernel
import proofs.«406076_j91319594647707_3_alg».proof.Proof.Gen.Kernel.Skeleton
import proofs.«406076_j91319594647707_3_alg».proof.Proof.Gen.Kernel.Launch
import proofs.«406076_j91319594647707_3_alg».proof.Proof.Gen.Kernel.Points
import proofs.«406076_j91319594647707_3_alg».proof.Proof.Gen.Kernel.Frame
import proofs.«406076_j91319594647707_3_alg».proof.Proof.Gen.KernelIdeal
import proofs.«406076_j91319594647707_3_alg».proof.Proof.Gen.KernelIdeal.Skeleton
import proofs.«406076_j91319594647707_3_alg».proof.Proof.Gen.KernelIdeal.Launch
import proofs.«406076_j91319594647707_3_alg».proof.Proof.Gen.KernelIdeal.Points
import proofs.«406076_j91319594647707_3_alg».proof.Proof.Gen.KernelIdeal.Frame
import proofs.«406076_j91319594647707_3_alg».proof.Proof.Gen.ReferenceIdeal
import proofs.«406076_j91319594647707_3_alg».proof.Proof.Gen.ReferenceIdeal.Run
import proofs.«406076_j91319594647707_3_alg».proof.Proof.Gen.Pre_finite_inputs
import proofs.«406076_j91319594647707_3_alg».proof.Proof.SpecLaws
import proofs.«406076_j91319594647707_3_alg».proof.Proof.Finite
import proofs.«406076_j91319594647707_3_alg».proof.Proof.KernelValue
import proofs.«406076_j91319594647707_3_alg».proof.Proof.RefValue
import Idealize.ShloMosaic.Adequacy
import Idealize.ShloMosaic.Init

noncomputable section

namespace Cert.Proof

open Idealize.ShloMosaic Idealize.SL.Sem Cert.Flow

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both runs end at the same two arrays: the first result is one
    function of the arguments on both sides; the second is the series in its two spellings, equal because the
    probe and the three weight matrices are finite. -/
theorem algebraic : Cert.algebraic_KernelIdeal_ReferenceIdeal := by
  intro m ρ m' ρ' hpre hagree
  refine ⟨_, _, Cert.Flow.Kern.kernel_run m ρ, ?_⟩
  refine (θ_run Cert.ReferenceIdeal.defs _ _).mono (fun r h c => ?_) (Cert.Flow.Ref.ref_run m' ρ')
  obtain ⟨h0, h1, h2, h3, h4, h5, h6, h7⟩ := hagree c
  obtain ⟨fv, fW1, fW2, fW3⟩ := Cert.Flow.fin_of_pre m hpre c
  refine ⟨(h c).1.trans ?_, (h c).2.1.trans ?_, (h c).2.2⟩
  · rw [h0, h2, h3, h4, h5, h6, h7]
  · rw [h0, h1, h2, h3, h4, h5, h6]
    exact (LfunK_eq_LfunR _ _ _ _ _ _ _ fv fW1 fW2 fW3).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
